-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x200 : Shape := ⟨3, ![512, 512, 200]⟩
abbrev S512x512 : Shape := ⟨2, ![512, 512]⟩
abbrev S_ : Shape := ⟨0, ![]⟩

class Facts : Prop where
  bcast_S_S512x512x200 : S_.BroadcastsInDim S512x512x200 (![] : Fin 0 → Fin S512x512x200.rank)
  reducesTo_S512x512x200_S_d0_1_2 : S512x512x200.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg1 : IVec S512x512 32) (main_v13 : IVec S_ 1) (main_v15 : IVec S512x512 1) (main_c_5 : IVec S_ 32) : IVec S_ 1 :=
  let main_v16 : IVec S512x512 32 := broadcastInDim S512x512 ![] bcast_S_S512x512 main_c_5
  let main_v17 : IVec S512x512 1 := cmpi .slt main_arg1 main_v16
  let main_v18 : IVec S512x512 1 := andi main_v15 main_v17
  let main_c_6 : IVec S_ 1 := constantI S_ 1 1#1
  let main_v19 : IVec S_ 1 := (fun x v => Host.reduce IntOp.andi x v reducesTo_S512x512_S_d0_1 h_S_) main_v18 main_c_6
  let main_v20 : IVec S_ 1 := andi main_v13 main_v19
  main_v20

def fn {F : FTy → Type} [FloatOps F] (main_arg0 : FVec F S512x512x200 .f32) (main_arg1 : IVec S512x512 32) (main_arg2 : FVec F S512x512 .f32) (main_arg3 : FVec F S512x512 .f32) : IVec S_ 1 :=
  let main_v0 : FVec F S512x512x200 .f32 := Host.absf main_arg0
  let main_cst : FVec F S_ .f32 := constant S_ .f32 0x7F800000#32
  let main_v1 : FVec F S512x512x200 .f32 := broadcastInDim S512x512x200 ![] bcast_S_S512x512x200 main_cst
  let main_v2 : IVec S512x512x200 1 := cmpf .olt main_v0 main_v1
  let main_c : IVec S_ 1 := constantI S_ 1 1#1
  let main_v3 : IVec S_ 1 := (fun x v => Host.reduce IntOp.andi x v reducesTo_S512x512x200_S_d0_1_2 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_c_4 : IVec S_ 32 := constantI S_ 32 0#32
  let main_v14 : IVec S512x512 32 := broadcastInDim S512x512 ![] bcast_S_S512x512 main_c_4
  let main_v15 : IVec S512x512 1 := cmpi .sge main_arg1 main_v14
  let main_c_5 : IVec S_ 32 := constantI S_ 32 200#32
  fn_part1 (F := F) main_arg1 main_v13 main_v15 main_c_5
-- ==== Kernel.lean ====
abbrev S512x512x200 : Shape := ⟨3, ![512, 512, 200]⟩
abbrev S512x512 : Shape := ⟨2, ![512, 512]⟩
abbrev S512x1 : Shape := ⟨2, ![512, 1]⟩
abbrev S64x256x200 : Shape := ⟨3, ![64, 256, 200]⟩
abbrev S64x256 : Shape := ⟨2, ![64, 256]⟩
abbrev S64x1 : Shape := ⟨2, ![64, 1]⟩
abbrev S8x64x32 : Shape := ⟨3, ![8, 64, 32]⟩
abbrev S64x32 : Shape := ⟨2, ![64, 32]⟩
abbrev S1x64x32 : Shape := ⟨3, ![1, 64, 32]⟩
abbrev S64x32x200 : Shape := ⟨3, ![64, 32, 200]⟩
abbrev S64x32x1 : Shape := ⟨3, ![64, 32, 1]⟩
abbrev S64 : Shape := ⟨1, ![64]⟩
abbrev S512 : Shape := ⟨1, ![512]⟩
abbrev S_ : Shape := ⟨0, ![]⟩

abbrev nBuf : Space → Nat
  | .hbm => 30
  | .vmem => 14
  | .smem => 0
  | _ => 0

abbrev bufTy : (tb : Table) → Fin (tcTables nBuf tb) → BufTy
  | .hbm, ⟨0, _⟩ => ⟨S512x512x200, .f32⟩
  | .hbm, ⟨1, _⟩ => ⟨S512x512, .i32⟩
  | .hbm, ⟨2, _⟩ => ⟨S512x512, .f32⟩
  | .hbm, ⟨3, _⟩ => ⟨S512x512, .f32⟩
  | .hbm, ⟨4, _⟩ => ⟨S512x1, .f32⟩
  | .hbm, ⟨5, _⟩ => ⟨S512x1, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .i1⟩
  | .hbm, ⟨12, _⟩ => ⟨S512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S64x256x200, .f32⟩
  | .local _ .vmem, ⟨1, _⟩ => ⟨S64x256x200, .f32⟩
  | .local _ .vmem, ⟨2, _⟩ => ⟨S64x256, .i32⟩
  | .local _ .vmem, ⟨3, _⟩ => ⟨S64x256, .i32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x1, .f32⟩
  | .local _ .vmem, ⟨12, _⟩ => ⟨S8x64x32, .i32⟩
  | .local _ .vmem, ⟨13, _⟩ => ⟨S8x64x32, .f32⟩
  | _, _ => ⟨S512x512x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_45 : BitVec 32 := 0#32
  let c8_i32 : BitVec 32 := 8#32
  let v70 : BitVec 32 := Scalar.addi c0_i32_45 c8_i32
  let c1_i32 : BitVec 32 := 1#32
  ⟨c0_i32_45, v70, c1_i32⟩
def k0_mult1 (k0_t1 : Fin k0_t1_loop.trips) : BitVec 32 :=
  let c0_i32_45 : BitVec 32 := 0#32
  let c1_i32 : BitVec 32 := 1#32
  let arg10 : BitVec 32 := Scf.iv c0_i32_45 c1_i32 k0_t1
  let c32_i32 : BitVec 32 := 32#32
  let v83 : BitVec 32 := Scalar.muli arg10 c32_i32
  v83
def k0_off1 (k0_t1 : Fin k0_t1_loop.trips) : Fin 3 → Nat :=
  let c0_58 : Index := 0#32
  let c0_i32_45 : BitVec 32 := 0#32
  let c1_i32 : BitVec 32 := 1#32
  let arg10 : BitVec 32 := Scf.iv c0_i32_45 c1_i32 k0_t1
  let c32_i32 : BitVec 32 := 32#32
  let v83 : BitVec 32 := Scalar.muli arg10 c32_i32
  let v84 : BitVec 32 := v83
  let v85 : Index := Scalar.indexCast v84
  let c0_59 : Index := 0#32
  ![0, v85.toNat, 0]
def k0_off2 (k0_t1 : Fin k0_t1_loop.trips) : Fin 3 → Nat :=
  let c0_i32_45 : BitVec 32 := 0#32
  let c1_i32 : BitVec 32 := 1#32
  let arg10 : BitVec 32 := Scf.iv c0_i32_45 c1_i32 k0_t1
  let v87 : Index := Scalar.indexCast arg10
  let c0_60 : Index := 0#32
  let c0_61 : Index := 0#32
  ![v87.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x256x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S64x1_S64x1_0_0 : ∀ a, (![0, 0] : Fin 2 → Nat) a + S64x1.size a ≤ S64x1.size a
  h_S64x1 : 0 < S64x1.numel
  inb_S64x256_S64x256_0_0 : ∀ a, (![0, 0] : Fin 2 → Nat) a + S64x256.size a ≤ S64x256.size a
  h_S64x256 : 0 < S64x256.numel
  slices_S64x256_o0_0_S64x32 : S64x256.Slices ![0, 0] S64x32
  inb_S8x64x32_S1x64x32_0_0_0 : ∀ a, (![0, 0, 0] : Fin 3 → Nat) a + S1x64x32.size a ≤ S8x64x32.size a
  h_S1x64x32 : 0 < S1x64x32.numel
  shapeCasts_S1x64x32_S64x32 : S1x64x32.ShapeCasts S64x32
  shapeCasts_S64x32_S1x64x32 : S64x32.ShapeCasts S1x64x32
  slices_S64x256_o0_32_S64x32 : S64x256.Slices ![0, 32] S64x32
  inb_S8x64x32_S1x64x32_1_0_0 : ∀ a, (![1, 0, 0] : Fin 3 → Nat) a + S1x64x32.size a ≤ S8x64x32.size a
  slices_S64x256_o0_64_S64x32 : S64x256.Slices ![0, 64] S64x32
  inb_S8x64x32_S1x64x32_2_0_0 : ∀ a, (![2, 0, 0] : Fin 3 → Nat) a + S1x64x32.size a ≤ S8x64x32.size a
  slices_S64x256_o0_96_S64x32 : S64x256.Slices ![0, 96] S64x32
  inb_S8x64x32_S1x64x32_3_0_0 : ∀ a, (![3, 0, 0] : Fin 3 → Nat) a + S1x64x32.size a ≤ S8x64x32.size a
  slices_S64x256_o0_128_S64x32 : S64x256.Slices ![0, 128] S64x32
  inb_S8x64x32_S1x64x32_4_0_0 : ∀ a, (![4, 0, 0] : Fin 3 → Nat) a + S1x64x32.size a ≤ S8x64x32.size a
  slices_S64x256_o0_160_S64x32 : S64x256.Slices ![0, 160] S64x32
  inb_S8x64x32_S1x64x32_5_0_0 : ∀ a, (![5, 0, 0] : Fin 3 → Nat) a + S1x64x32.size a ≤ S8x64x32.size a
  slices_S64x256_o0_192_S64x32 : S64x256.Slices ![0, 192] S64x32
  inb_S8x64x32_S1x64x32_6_0_0 : ∀ a, (![6, 0, 0] : Fin 3 → Nat) a + S1x64x32.size a ≤ S8x64x32.size a
  slices_S64x256_o0_224_S64x32 : S64x256.Slices ![0, 224] S64x32
  inb_S8x64x32_S1x64x32_7_0_0 : ∀ a, (![7, 0, 0] : Fin 3 → Nat) a + S1x64x32.size a ≤ S8x64x32.size a
  h_S64x32x200 : 0 < S64x32x200.numel
  reduces_S64x32x200_S64x32 : S64x32x200.Reduces [2] S64x32
  shapeCasts_S64x32_S64x32x1 : S64x32.ShapeCasts S64x32x1
  iota_S64x32x200_d2_w32 : S64x32x200.Iotas .tc 32 [2]
  broadcasts_S64x32x1_S64x32x200 : S64x32x1.Broadcasts S64x32x200
  natLt_1_32 : 1 < 32
  shapeCasts_S64x32x1_S64x32 : S64x32x1.ShapeCasts S64x32
  reduces_S64x32_S64 : S64x32.Reduces [1] S64
  shapeCasts_S64_S64x1 : S64.ShapeCasts S64x1
  reduces_S64x256_S64 : S64x256.Reduces [1] S64
  shapeCasts_S64x1_S64x1 : S64x1.ShapeCasts S64x1
  shapeCasts_S512x1_S512 : S512x1.ShapeCasts S512
  bcast_S_S512 : S_.BroadcastsInDim S512 (![] : Fin 0 → Fin S512.rank)
  reducesTo_S512_S_d0 : S512.ReducesTo [0] S_
  h_S_ : 0 < S_.numel
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S64x32x200.size a ≤ S64x256x200.size a
  k0_off2_inb : ∀ k0_t1 : Fin k0_t1_loop.trips, ∀ a, (k0_off2 k0_t1) a + S1x64x32.size a ≤ S8x64x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x200.size a ≤ S512x512x200.size a
  hwx0_0 : ∀ i : grid0.Coords, EltTy.bits .f32 = 32 ∨ (Rect.block (s := S512x512x200) S64x256x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S512x512.size a
  hwx0_1 : ∀ i : grid0.Coords, EltTy.bits .i32 = 32 ∨ (Rect.block (s := S512x512) S64x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S512x512.size a
  hwx0_2 : ∀ i : grid0.Coords, EltTy.bits .f32 = 32 ∨ (Rect.block (s := S512x512) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S512x512.size a
  hwx0_3 : ∀ i : grid0.Coords, EltTy.bits .f32 = 32 ∨ (Rect.block (s := S512x512) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S512x1.size a
  hwx0_4 : ∀ i : grid0.Coords, EltTy.bits .f32 = 32 ∨ (Rect.block (s := S512x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S512x1.size a
  hwx0_5 : ∀ i : grid0.Coords, EltTy.bits .f32 = 32 ∨ (Rect.block (s := S512x1) S64x1.size (cc0_transform_5 i) (hinb0_5 i)).WholeWords (EltTy.packing .f32)

variable [Facts₀]

abbrev win0_0 : Pipeline.Window sig grid0 :=
  Pipeline.Window.ofSpec (Memref.whole main_arg0) S64x256x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x512x200 : Shape := ⟨3, ![512, 512, 200]⟩
abbrev S512x512 : Shape := ⟨2, ![512, 512]⟩
abbrev S_ : Shape := ⟨0, ![]⟩
abbrev S512x512x1 : Shape := ⟨3, ![512, 512, 1]⟩
abbrev S512x512x1x1 : Shape := ⟨4, ![512, 512, 1, 1]⟩
abbrev S1 : Shape := ⟨1, ![1]⟩
abbrev S1x1x1x1 : Shape := ⟨4, ![1, 1, 1, 1]⟩
abbrev S512 : Shape := ⟨1, ![512]⟩

abbrev nBuf : Space → Nat
  | .hbm => 76
  | .vmem => 0
  | .smem => 0
  | _ => 0

abbrev bufTy : (tb : Table) → Fin (tcTables nBuf tb) → BufTy
  | .hbm, ⟨0, _⟩ => ⟨S512x512x200, .f32⟩
  | .hbm, ⟨1, _⟩ => ⟨S512x512, .i32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512x1, .f32⟩
  | .hbm, ⟨10, _⟩ => ⟨S512x512x200, .f32⟩
  | .hbm, ⟨11, _⟩ => ⟨S512x512x200, .f32⟩
  | .hbm, ⟨12, _⟩ => ⟨S512x512x200, .f32⟩
  | .hbm, ⟨13, _⟩ => ⟨S_, .f32⟩
  | .hbm, ⟨14, _⟩ => ⟨S512x512, .f32⟩
  | .hbm, ⟨15, _⟩ => ⟨S512x512x1, .f32⟩
  | .hbm, ⟨16, _⟩ => ⟨S512x512x1, .f32⟩
  | .hbm, ⟨17, _⟩ => ⟨S512x512x200, .f32⟩
  | .hbm, ⟨18, _⟩ => ⟨S512x512x200, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S512x512x1, .f32⟩
  | .hbm, ⟨23, _⟩ => ⟨S512x512x200, .f32⟩
  | .hbm, ⟨24, _⟩ => ⟨S512x512x200, .f32⟩
  | .hbm, ⟨25, _⟩ => ⟨S512x512x1, .i32⟩
  | .hbm, ⟨26, _⟩ => ⟨S_, .i32⟩
  | .hbm, ⟨27, _⟩ => ⟨S512x512x1, .i32⟩
  | .hbm, ⟨28, _⟩ => ⟨S512x512x1, .i1⟩
  | .hbm, ⟨29, _⟩ => ⟨S_, .i32⟩
  | .hbm, ⟨30, _⟩ => ⟨S512x512x1, .i32⟩
  | .hbm, ⟨31, _⟩ => ⟨S512x512x1, .i32⟩
  | .hbm, ⟨32, _⟩ => ⟨S512x512x1, .i32⟩
  | .hbm, ⟨33, _⟩ => ⟨S512x512x1x1, .i32⟩
  | .hbm, ⟨34, _⟩ => ⟨S1, .i32⟩
  | .hbm, ⟨35, _⟩ => ⟨S_, .i32⟩
  | .hbm, ⟨36, _⟩ => ⟨S512x512x1x1, .i32⟩
  | .hbm, ⟨37, _⟩ => ⟨S512x512x1x1, .i1⟩
  | .hbm, ⟨38, _⟩ => ⟨S1x1x1x1, .i32⟩
  | .hbm, ⟨39, _⟩ => ⟨S512x512x1x1, .i32⟩
  | .hbm, ⟨40, _⟩ => ⟨S512x512x1x1, .i1⟩
  | .hbm, ⟨41, _⟩ => ⟨S512x512x1x1, .i1⟩
  | .hbm, ⟨42, _⟩ => ⟨S_, .i1⟩
  | .hbm, ⟨43, _⟩ => ⟨S512x512x1, .i1⟩
  | .hbm, ⟨44, _⟩ => ⟨S512x512x1, .f32⟩
  | .hbm, ⟨45, _⟩ => ⟨S_, .f32⟩
  | .hbm, ⟨46, _⟩ => ⟨S512x512x1, .f32⟩
  | .hbm, ⟨47, _⟩ => ⟨S512x512x1, .f32⟩
  | .hbm, ⟨48, _⟩ => ⟨S512x512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S_, .f32⟩
  | .hbm, ⟨56, _⟩ => ⟨S512, .f32⟩
  | .hbm, ⟨57, _⟩ => ⟨S512, .i1⟩
  | .hbm, ⟨58, _⟩ => ⟨S512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S512, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S512x512x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v7 : Ref sig .tc := ⟨.hbm, 47, rfl⟩
abbrev main_v8 : Ref sig .tc := ⟨.hbm, 48, rfl⟩
abbrev main_cst_0 : Ref sig .tc := ⟨.hbm, 49, rfl⟩
abbrev main_v9 : Ref sig .tc := ⟨.hbm, 50, rfl⟩
abbrev main_v10 : Ref sig .tc := ⟨.hbm, 51, rfl⟩
abbrev main_cst_1 : Ref sig .tc := ⟨.hbm, 52, rfl⟩
abbrev main_v11 : Ref sig .tc := ⟨.hbm, 53, rfl⟩
abbrev main_v12 : Ref sig .tc := ⟨.hbm, 54, rfl⟩
abbrev main_cst_2 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_cst_3 : Ref sig .tc := ⟨.hbm, 59, rfl⟩
abbrev main_v16 : Ref sig .tc := ⟨.hbm, 60, rfl⟩
abbrev main_cst_4 : Ref sig .tc := ⟨.hbm, 61, rfl⟩
abbrev main_call2_v0 : Ref sig .tc := ⟨.hbm, 62, rfl⟩
abbrev main_call2_v1 : Ref sig .tc := ⟨.hbm, 63, rfl⟩
abbrev main_v17 : Ref sig .tc := ⟨.hbm, 64, rfl⟩
abbrev main_cst_5 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_cst_6 : Ref sig .tc := ⟨.hbm, 69, rfl⟩
abbrev main_v21 : Ref sig .tc := ⟨.hbm, 70, rfl⟩
abbrev main_cst_7 : Ref sig .tc := ⟨.hbm, 71, rfl⟩
abbrev main_v22 : Ref sig .tc := ⟨.hbm, 72, rfl⟩
abbrev main_cst_8 : Ref sig .tc := ⟨.hbm, 73, rfl⟩
abbrev main_v23 : Ref sig .tc := ⟨.hbm, 74, rfl⟩
abbrev main_v24 : Ref sig .tc := ⟨.hbm, 75, rfl⟩

abbrev nD : Nat := 1
abbrev τ : Topo := Topo.v7x

variable {F : FTy → Type} [FloatOps F]

class Facts₀ : Prop where
  reducesTo_S512x512x200_S512x512_d2 : S512x512x200.ReducesTo [2] S512x512
  h_S_ : 0 < S_.numel
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512x1_S512x512x200_0_1_2 : S512x512x1.BroadcastsInDim S512x512x200 (![0, 1, 2] : Fin 3 → Fin S512x512x200.rank)
  bcast_S_S512x512x1 : S_.BroadcastsInDim S512x512x1 (![] : Fin 0 → Fin S512x512x1.rank)
  shapeCasts_S512x512x1_S512x512x1x1 : S512x512x1.ShapeCasts S512x512x1x1
  bcast_S_S512x512x1x1 : S_.BroadcastsInDim S512x512x1x1 (![] : Fin 0 → Fin S512x512x1x1.rank)
  bcast_S1_S1x1x1x1_3 : S1.BroadcastsInDim S1x1x1x1 (![3] : Fin 1 → Fin S1x1x1x1.rank)
  bcast_S1x1x1x1_S512x512x1x1_0_1_2_3 : S1x1x1x1.BroadcastsInDim S512x512x1x1 (![0, 1, 2, 3] : Fin 4 → Fin S512x512x1x1.rank)
  reducesTo_S512x512x1x1_S512x512x1_d3 : S512x512x1x1.ReducesTo [3] S512x512x1
  shapeCasts_S512x512x1_S512x512 : S512x512x1.ShapeCasts S512x512
  reducesTo_S512x512_S512_d1 : S512x512.ReducesTo [1] S512
  bcast_S_S512 : S_.BroadcastsInDim S512 (![] : Fin 0 → Fin S512.rank)
  reducesTo_S512_S_d0 : S512.ReducesTo [0] S_
  gather_S512x512x200_S512x512x1x1_S512x512x1_n_2_01_01_2_3_111_wf : GatherDims.WF S512x512x200 S512x512x1x1 S512x512x1 [] [2] [0, 1] [2] [0, 1] 3 ![1, 1, 1]

variable [Facts₀]

def gather_S512x512x200_S512x512x1x1_S512x512x1_n_2_01_01_2_3_111 : GatherDims S512x512x200 S512x512x1x1 S512x512x1 where
  offsetDims := []
  collapsedSliceDims := [2]
  operandBatchingDims := [0, 1]
  startIndicesBatchingDims := [0, 1]
  startIndexMap := [2]
  indexVectorDim := 3
  sliceSizes := ![1, 1, 1]
  wf := gather_S512x512x200_S512x512x1x1_S512x512x1_n_2_01_01_2_3_111_wf

class Facts : Prop extends Facts₀ where

variable [Facts]
-- ==== Proof.Kernel.Runs.lean ====
/-
  The kernel body's control and operands, named once for the case runs and the body obligation.

  The body has one branch, on the second grid coordinate `j`: at `j = 0` (the even points of the 8 × 2 grid, in
  row-major order) it first clears both output blocks. It is called with six staging memrefs (the logits', actions',
  rewards' and terminals' blocks, and the two output blocks of 64 row totals) and two scratch buffers of its own, in
  which it re-lays the actions' and terminals' blocks as eight chunks of 32 steps.
-/
import proofs.«421785_j36747740185105_3_alg».proof.Proof.Gen.Kernel.Frame
import proofs.«421785_j36747740185105_3_alg».proof.Proof.Gen.Kernel.Skeleton
import proofs.«421785_j36747740185105_3_alg».proof.Proof.Gen.Kernel.Loops

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch's condition `j = 0`, as the body computes it from the grid coordinates. -/
abbrev cond0_0 (i : grid0.Coords) : Prop :=
  (Scalar.cmpi .ne (Scalar.extui (Scalar.cmpi .eq (BitVec.ofNat 32 (i 1).val) 0#32)) 0#32) = 1#1

/-- It holds exactly at the even points (decided over the sixteen points). -/
theorem hcond0_0 : ∀ t : Fin cfg0.N, cond0_0 (grid0.coords t) ↔ t.val % 2 = 0 :=
  (by decide +kernel : ∀ t : Fin grid0.N, cond0_0 (grid0.coords t) ↔ t.val % 2 = 0)

/-- Each window's current staging memref at point `t`, as the pipeline passes it to the body, and its wholeness. -/
abbrev ms0_0 (t : Fin cfg0.N) : Memref sig .tc .vmem S64x256x200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1 .f32 := win0_5.stage (cfg0.slots t 5)
abbrev hs0_5 (t : Fin cfg0.N) : (ms0_5 t).IsWhole := hstage0_5 ((cfg0.slots t 5).cast nbuf0_5)

/-- The two scratch operands: whole buffers of the kernel's own, passed beside the windows. -/
abbrev scM0_0 : Memref sig .tc .vmem S8x64x32 .i32 := Memref.whole cc0_scratch0
abbrev scM0_1 : Memref sig .tc .vmem S8x64x32 .f32 := Memref.whole cc0_scratch1

/-- One staging buffer of each output window, through which its contents are stated (the choice does not matter:
    the pieces cover the block). -/
abbrev VO0_4 : View sig .tc .vmem S64x1 .f32 := (Memref.whole cc0_stg4_0 : Memref sig .tc .vmem S64x1 .f32).view
abbrev VO0_5 : View sig .tc .vmem S64x1 .f32 := (Memref.whole cc0_stg5_0 : Memref sig .tc .vmem S64x1 .f32).view

/-- The pipeline's invariant hands the body its two scratch buffers at some contents (and the generator register)
    and takes them back at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.Kernel.RunA.lean ====
/-
  The body at an EVEN grid point (`j = 0`): both output blocks are cleared first, so what the body leaves in them
  does not depend on what they held. The run is symbolic in the point; the pieces each output block ends with are
  found by the run itself and are this definition's first two components.
-/
import proofs.«421785_j36747740185105_3_alg».proof.Proof.Kernel.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the two output blocks at an even point (last store first), WITH the proof
    that on whole staging memrefs — the four inputs' at their contents, the two outputs' and the two scratch buffers
    at anything — the body runs, hands the inputs back as they were, each output block with its pieces written, and
    the scratch buffers at some contents. -/
noncomputable def kernelRun0_A (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i)
    (x0 : Vec F S64x256x200 .f32) (x1 : Vec F S64x256 .i32) (x2 : Vec F S64x256 .f32) (x3 : Vec F S64x256 .f32) :
    Σ' (L4 : List (View.Piece (Elt F) S64x1 .f32)), { L5 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d)) -∗ K ⟨⟩))
          ⊢ wp frame (wpE (defs₀ (F := F)) Variants.none c none) E (cc0__pg_kernel i arg2 harg2 arg3 harg3 arg4 harg4 arg5 harg5 arg6 harg6 arg7 harg7 arg8 harg8 arg9 harg9) K } := by
  refine ⟨?_, ?_, fun E K => ?run⟩
  case run =>
    simp only [cc0__pg_kernel_eq_skeleton]; unfold cc0__pg_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _, _; isplitr; swap; · iexact HS0
      ipureintro; rfl
    iexists _, _; isplitr; swap; · iexact HS1
    ipureintro; rfl

end Cert.Kernel.Hand

end
-- ==== Proof.Kernel.RunB.lean ====
/-
  The body at an ODD grid point (`j = 1`): nothing is cleared, and each output block is read before it is
  overwritten, so what the body leaves in it is a function of what the point before left there (`xo4`, `xo5`).
-/
import proofs.«421785_j36747740185105_3_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the two output blocks at an odd point, WITH the proof that on whole staging
    memrefs — the four inputs' at their contents, the two outputs' at their running contents `xo4`, `xo5`, the two
    scratch buffers at anything — the body runs, hands the inputs back as they were, each output block with its
    pieces written, and the scratch buffers at some contents. -/
noncomputable def kernelRun0_B (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i)
    (x0 : Vec F S64x256x200 .f32) (x1 : Vec F S64x256 .i32) (x2 : Vec F S64x256 .f32) (x3 : Vec F S64x256 .f32)
    (xo4 : Vec F S64x1 .f32) (xo5 : Vec F S64x1 .f32) :
    Σ' (L4 : List (View.Piece (Elt F) S64x1 .f32)), { L5 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d)) -∗ K ⟨⟩))
          ⊢ wp frame (wpE (defs₀ (F := F)) Variants.none c none) E (cc0__pg_kernel i arg2 harg2 arg3 harg3 arg4 harg4 arg5 harg5 arg6 harg6 arg7 harg7 arg8 harg8 arg9 harg9) K } := by
  refine ⟨?_, ?_, fun E K => ?run⟩
  case run =>
    simp only [cc0__pg_kernel_eq_skeleton]; unfold cc0__pg_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _, _; isplitr; swap; · iexact HS0
      ipureintro; rfl
    iexists _, _; isplitr; swap; · iexact HS1
    ipureintro; rfl

end Cert.Kernel.Hand

end
-- ==== Proof.Kernel.Body.lean ====
/-
  The frame of the program, and what its two output arrays hold after the region.

  The pipeline visits the 8 × 2 grid in row-major order. The two output windows' blocks (64 row totals each) do not
  move along the second grid axis, so an output block is written back to its array only after the ODD point of a pair,
  and at the odd point the staging buffer still holds what the EVEN point left. Hence, point by point:
  after an even point the two blocks hold the even case's result of that point's input blocks; after an odd point
  they hold the odd case's result of that point's input blocks and of what the even point before it left.
  With that as the proof data, the body obligation is the even case's run at even points and the odd case's at odd
  points, and the library's launch theorem gives the run of @main with every output array named.
-/
import proofs.«421785_j36747740185105_3_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output blocks -/

/-- The even case's pieces for the first output tile its block, so they cover it. -/
theorem cover0_A_4 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i) (x0 : Vec F S64x256x200 .f32) (x1 : Vec F S64x256 .i32) (x2 : Vec F S64x256 .f32) (x3 : Vec F S64x256 .f32) (y : S64x1.Idx) :
    ∃ pc ∈ (kernelRun0_A c i arg2 harg2 arg3 harg3 arg4 harg4 arg5 harg5 arg6 harg6 arg7 harg7 arg8 harg8 arg9 harg9 hc0 x0 x1 x2 x3).1, y ∈ pc.1.set :=
  View.cover_of_tiledL (kernelRun0_A c i arg2 harg2 arg3 harg3 arg4 harg4 arg5 harg5 arg6 harg6 arg7 harg7 arg8 harg8 arg9 harg9 hc0 x0 x1 x2 x3).1 S64x1.size (by sl_kernel_rfl) y
/-- The even case's pieces for the second output cover its block. -/
theorem cover0_A_5 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i) (x0 : Vec F S64x256x200 .f32) (x1 : Vec F S64x256 .i32) (x2 : Vec F S64x256 .f32) (x3 : Vec F S64x256 .f32) (y : S64x1.Idx) :
    ∃ pc ∈ (kernelRun0_A c i arg2 harg2 arg3 harg3 arg4 harg4 arg5 harg5 arg6 harg6 arg7 harg7 arg8 harg8 arg9 harg9 hc0 x0 x1 x2 x3).2.1, y ∈ pc.1.set :=
  View.cover_of_tiledL (kernelRun0_A c i arg2 harg2 arg3 harg3 arg4 harg4 arg5 harg5 arg6 harg6 arg7 harg7 arg8 harg8 arg9 harg9 hc0 x0 x1 x2 x3).2.1 S64x1.size (by sl_kernel_rfl) y

/-- What the even case leaves in the first output's block: its pieces read back (over anything: they cover). -/
def out0_A_4 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i) (x0 : Vec F S64x256x200 .f32) (x1 : Vec F S64x256 .i32) (x2 : Vec F S64x256 .f32) (x3 : Vec F S64x256 .f32) : Vec F S64x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 x0 x1 x2 x3).1)
/-- What the even case leaves in the second output's block. -/
def out0_A_5 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i) (x0 : Vec F S64x256x200 .f32) (x1 : Vec F S64x256 .i32) (x2 : Vec F S64x256 .f32) (x3 : Vec F S64x256 .f32) : Vec F S64x1 .f32 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3).2.1)

/-- The odd case's pieces for the first output cover its block. -/
theorem cover0_B_4 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i) (x0 : Vec F S64x256x200 .f32) (x1 : Vec F S64x256 .i32) (x2 : Vec F S64x256 .f32) (x3 : Vec F S64x256 .f32) (xo4 : Vec F S64x1 .f32) (xo5 : Vec F S64x1 .f32) (y : S64x1.Idx) :
    ∃ pc ∈ (kernelRun0_B c i arg2 harg2 arg3 harg3 arg4 harg4 arg5 harg5 arg6 harg6 arg7 harg7 arg8 harg8 arg9 harg9 hc0 x0 x1 x2 x3 xo4 xo5).1, y ∈ pc.1.set :=
  View.cover_of_tiledL (kernelRun0_B c i arg2 harg2 arg3 harg3 arg4 harg4 arg5 harg5 arg6 harg6 arg7 harg7 arg8 harg8 arg9 harg9 hc0 x0 x1 x2 x3 xo4 xo5).1 S64x1.size (by sl_kernel_rfl) y
/-- The odd case's pieces for the second output cover its block. -/
theorem cover0_B_5 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i) (x0 : Vec F S64x256x200 .f32) (x1 : Vec F S64x256 .i32) (x2 : Vec F S64x256 .f32) (x3 : Vec F S64x256 .f32) (xo4 : Vec F S64x1 .f32) (xo5 : Vec F S64x1 .f32) (y : S64x1.Idx) :
    ∃ pc ∈ (kernelRun0_B c i arg2 harg2 arg3 harg3 arg4 harg4 arg5 harg5 arg6 harg6 arg7 harg7 arg8 harg8 arg9 harg9 hc0 x0 x1 x2 x3 xo4 xo5).2.1, y ∈ pc.1.set :=
  View.cover_of_tiledL (kernelRun0_B c i arg2 harg2 arg3 harg3 arg4 harg4 arg5 harg5 arg6 harg6 arg7 harg7 arg8 harg8 arg9 harg9 hc0 x0 x1 x2 x3 xo4 xo5).2.1 S64x1.size (by sl_kernel_rfl) y

/-- What the odd case leaves in the first output's block, from the input blocks and the running contents. -/
def out0_B_4 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i) (x0 : Vec F S64x256x200 .f32) (x1 : Vec F S64x256 .i32) (x2 : Vec F S64x256 .f32) (x3 : Vec F S64x256 .f32) (xo4 : Vec F S64x1 .f32) (xo5 : Vec F S64x1 .f32) : Vec F S64x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 x0 x1 x2 x3 xo4 xo5).1)
/-- What the odd case leaves in the second output's block. -/
def out0_B_5 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i) (x0 : Vec F S64x256x200 .f32) (x1 : Vec F S64x256 .i32) (x2 : Vec F S64x256 .f32) (x3 : Vec F S64x256 .f32) (xo4 : Vec F S64x1 .f32) (xo5 : Vec F S64x1 .f32) : Vec F S64x1 .f32 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 xo4 xo5).2.1)

/-! ## What the output blocks hold after each point -/

/-- The two output blocks after the body at position `n` of the grid: at an even position the even case's result of
    that point's input blocks; at an odd position the odd case's result over what position `n - 1` left. -/
def outsAt0 (c : Dev nD) : (n : ℕ) → n < cfg0.N → Vec F S64x1 .f32 × Vec F S64x1 .f32
  | 0, hn =>
    let t : Fin cfg0.N := ⟨0, hn⟩
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr (Nat.zero_mod _)) (iblk m c 0 t) (iblk m c 1 t) (iblk m c 2 t) (iblk m c 3 t),
     out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr (Nat.zero_mod _)) (iblk m c 0 t) (iblk m c 1 t) (iblk m c 2 t) (iblk m c 3 t))
  | n + 1, hn =>
    let t : Fin cfg0.N := ⟨n + 1, hn⟩
    if h0 : (n + 1) % 2 = 0 then
      (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t))
    else
      (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
          (outsAt0 c n (Nat.lt_of_succ_lt hn)).1 (outsAt0 c n (Nat.lt_of_succ_lt hn)).2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
          (outsAt0 c n (Nat.lt_of_succ_lt hn)).1 (outsAt0 c n (Nat.lt_of_succ_lt hn)).2)

/-- At an even point: the even case's contents. -/
theorem outsAt0_A (c : Dev nD) (t : Fin cfg0.N) (h0 : t.val % 2 = 0) :
    outsAt0 m c t.val t.isLt =
      (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- At an odd point: the odd case's contents, over what the point before left. -/
theorem outsAt0_B (c : Dev nD) (t : Fin cfg0.N) (h0 : ¬t.val % 2 = 0) :
    outsAt0 m c t.val t.isLt =
      (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
          (outsAt0 m c (t.val - 1) (Nat.lt_of_le_of_lt (Nat.sub_le _ _) t.isLt)).1 (outsAt0 m c (t.val - 1) (Nat.lt_of_le_of_lt (Nat.sub_le _ _) t.isLt)).2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer
    at its block and the two outputs' at `outsAt0`; the invariant the scratch buffers and the generator register at
    some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At an odd point the first output's staging buffer holds what the body left at the even point before it: the
    point is not the first, the buffer was not written back in between, the window is live and uncut. -/
theorem before0_4_B (c : Dev nD) (t : Fin cfg0.N) (h0 : ¬t.val % 2 = 0) (d) :
    (dats m 0 c).before 4 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]
/-- The same for the second output. -/
theorem before0_5_B (c : Dev nD) (t : Fin cfg0.N) (h0 : ¬t.val % 2 = 0) (d) :
    (dats m 0 c).before 5 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks; an even point is the even case, an odd point the odd
    case over what the even point before it left in the output blocks; the invariant hands the body its scratch
    buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 16 := lt_of_lt_of_eq t.isLt (show cfg0.N = 16 from N_0)
  by_cases h0 : t.val % 2 = 0
  · rw [outsAt0_A m c t h0]
    dsimp only
    unfold out0_A_4 out0_A_5
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _ _ _ _)
  · rw [outsAt0_B m c t h0]
    dsimp only
    simp only [before0_4_B m c t h0, before0_5_B m c t h0]
    unfold out0_B_4 out0_B_5
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, ⟨%e4, H4⟩, ⟨%e5, H5⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every array of the pipeline at what the library computes
    from the proof data (an output array: its blocks as written back) and every other buffer at what the host
    operations after the region make of them. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KernelIdeal.Runs.lean ====
/-
  The kernel body's control and operands, named once for the case runs and the body obligation.

  The body has one branch, on the second grid coordinate `j`: at `j = 0` (the even points of the 8 × 2 grid, in
  row-major order) it first clears both output blocks. It is called with six staging memrefs (the logits', actions',
  rewards' and terminals' blocks, and the two output blocks of 64 row totals) and two scratch buffers of its own, in
  which it re-lays the actions' and terminals' blocks as eight chunks of 32 steps.
-/
import proofs.«421785_j36747740185105_3_alg».proof.Proof.Gen.KernelIdeal.Frame
import proofs.«421785_j36747740185105_3_alg».proof.Proof.Gen.KernelIdeal.Skeleton
import proofs.«421785_j36747740185105_3_alg».proof.Proof.Gen.KernelIdeal.Loops

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch's condition `j = 0`, as the body computes it from the grid coordinates. -/
abbrev cond0_0 (i : grid0.Coords) : Prop :=
  (Scalar.cmpi .ne (Scalar.extui (Scalar.cmpi .eq (BitVec.ofNat 32 (i 1).val) 0#32)) 0#32) = 1#1

/-- It holds exactly at the even points (decided over the sixteen points). -/
theorem hcond0_0 : ∀ t : Fin cfg0.N, cond0_0 (grid0.coords t) ↔ t.val % 2 = 0 :=
  (by decide +kernel : ∀ t : Fin grid0.N, cond0_0 (grid0.coords t) ↔ t.val % 2 = 0)

/-- Each window's current staging memref at point `t`, as the pipeline passes it to the body, and its wholeness. -/
abbrev ms0_0 (t : Fin cfg0.N) : Memref sig .tc .vmem S64x256x200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1 .f32 := win0_5.stage (cfg0.slots t 5)
abbrev hs0_5 (t : Fin cfg0.N) : (ms0_5 t).IsWhole := hstage0_5 ((cfg0.slots t 5).cast nbuf0_5)

/-- The two scratch operands: whole buffers of the kernel's own, passed beside the windows. -/
abbrev scM0_0 : Memref sig .tc .vmem S8x64x32 .i32 := Memref.whole cc0_scratch0
abbrev scM0_1 : Memref sig .tc .vmem S8x64x32 .f32 := Memref.whole cc0_scratch1

/-- One staging buffer of each output window, through which its contents are stated (the choice does not matter:
    the pieces cover the block). -/
abbrev VO0_4 : View sig .tc .vmem S64x1 .f32 := (Memref.whole cc0_stg4_0 : Memref sig .tc .vmem S64x1 .f32).view
abbrev VO0_5 : View sig .tc .vmem S64x1 .f32 := (Memref.whole cc0_stg5_0 : Memref sig .tc .vmem S64x1 .f32).view

/-- The pipeline's invariant hands the body its two scratch buffers at some contents (and the generator register)
    and takes them back at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdeal.RunA.lean ====
/-
  The body at an EVEN grid point (`j = 0`): both output blocks are cleared first, so what the body leaves in them
  does not depend on what they held. The run is symbolic in the point; the pieces each output block ends with are
  found by the run itself and are this definition's first two components.
-/
import proofs.«421785_j36747740185105_3_alg».proof.Proof.KernelIdeal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the two output blocks at an even point (last store first), WITH the proof
    that on whole staging memrefs — the four inputs' at their contents, the two outputs' and the two scratch buffers
    at anything — the body runs, hands the inputs back as they were, each output block with its pieces written, and
    the scratch buffers at some contents. -/
noncomputable def kernelRun0_A (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i)
    (x0 : Vec F S64x256x200 .f32) (x1 : Vec F S64x256 .i32) (x2 : Vec F S64x256 .f32) (x3 : Vec F S64x256 .f32) :
    Σ' (L4 : List (View.Piece (Elt F) S64x1 .f32)), { L5 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d)) -∗ K ⟨⟩))
          ⊢ wp frame (wpE (defs₀ (F := F)) Variants.none c none) E (cc0__pg_kernel i arg2 harg2 arg3 harg3 arg4 harg4 arg5 harg5 arg6 harg6 arg7 harg7 arg8 harg8 arg9 harg9) K } := by
  refine ⟨?_, ?_, fun E K => ?run⟩
  case run =>
    simp only [cc0__pg_kernel_eq_skeleton]; unfold cc0__pg_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _, _; isplitr; swap; · iexact HS0
      ipureintro; rfl
    iexists _, _; isplitr; swap; · iexact HS1
    ipureintro; rfl

end Cert.KernelIdeal.Hand

end
-- ==== Proof.KernelIdeal.RunB.lean ====
/-
  The body at an ODD grid point (`j = 1`): nothing is cleared, and each output block is read before it is
  overwritten, so what the body leaves in it is a function of what the point before left there (`xo4`, `xo5`).
-/
import proofs.«421785_j36747740185105_3_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the two output blocks at an odd point, WITH the proof that on whole staging
    memrefs — the four inputs' at their contents, the two outputs' at their running contents `xo4`, `xo5`, the two
    scratch buffers at anything — the body runs, hands the inputs back as they were, each output block with its
    pieces written, and the scratch buffers at some contents. -/
noncomputable def kernelRun0_B (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i)
    (x0 : Vec F S64x256x200 .f32) (x1 : Vec F S64x256 .i32) (x2 : Vec F S64x256 .f32) (x3 : Vec F S64x256 .f32)
    (xo4 : Vec F S64x1 .f32) (xo5 : Vec F S64x1 .f32) :
    Σ' (L4 : List (View.Piece (Elt F) S64x1 .f32)), { L5 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d)) -∗ K ⟨⟩))
          ⊢ wp frame (wpE (defs₀ (F := F)) Variants.none c none) E (cc0__pg_kernel i arg2 harg2 arg3 harg3 arg4 harg4 arg5 harg5 arg6 harg6 arg7 harg7 arg8 harg8 arg9 harg9) K } := by
  refine ⟨?_, ?_, fun E K => ?run⟩
  case run =>
    simp only [cc0__pg_kernel_eq_skeleton]; unfold cc0__pg_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _, _; isplitr; swap; · iexact HS0
      ipureintro; rfl
    iexists _, _; isplitr; swap; · iexact HS1
    ipureintro; rfl

end Cert.KernelIdeal.Hand

end
-- ==== Proof.KernelIdeal.Body.lean ====
/-
  The frame of the program, and what its two output arrays hold after the region.

  The pipeline visits the 8 × 2 grid in row-major order. The two output windows' blocks (64 row totals each) do not
  move along the second grid axis, so an output block is written back to its array only after the ODD point of a pair,
  and at the odd point the staging buffer still holds what the EVEN point left. Hence, point by point:
  after an even point the two blocks hold the even case's result of that point's input blocks; after an odd point
  they hold the odd case's result of that point's input blocks and of what the even point before it left.
  With that as the proof data, the body obligation is the even case's run at even points and the odd case's at odd
  points, and the library's launch theorem gives the run of @main with every output array named.
-/
import proofs.«421785_j36747740185105_3_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output blocks -/

/-- The even case's pieces for the first output tile its block, so they cover it. -/
theorem cover0_A_4 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i) (x0 : Vec F S64x256x200 .f32) (x1 : Vec F S64x256 .i32) (x2 : Vec F S64x256 .f32) (x3 : Vec F S64x256 .f32) (y : S64x1.Idx) :
    ∃ pc ∈ (kernelRun0_A c i arg2 harg2 arg3 harg3 arg4 harg4 arg5 harg5 arg6 harg6 arg7 harg7 arg8 harg8 arg9 harg9 hc0 x0 x1 x2 x3).1, y ∈ pc.1.set :=
  View.cover_of_tiledL (kernelRun0_A c i arg2 harg2 arg3 harg3 arg4 harg4 arg5 harg5 arg6 harg6 arg7 harg7 arg8 harg8 arg9 harg9 hc0 x0 x1 x2 x3).1 S64x1.size (by sl_kernel_rfl) y
/-- The even case's pieces for the second output cover its block. -/
theorem cover0_A_5 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i) (x0 : Vec F S64x256x200 .f32) (x1 : Vec F S64x256 .i32) (x2 : Vec F S64x256 .f32) (x3 : Vec F S64x256 .f32) (y : S64x1.Idx) :
    ∃ pc ∈ (kernelRun0_A c i arg2 harg2 arg3 harg3 arg4 harg4 arg5 harg5 arg6 harg6 arg7 harg7 arg8 harg8 arg9 harg9 hc0 x0 x1 x2 x3).2.1, y ∈ pc.1.set :=
  View.cover_of_tiledL (kernelRun0_A c i arg2 harg2 arg3 harg3 arg4 harg4 arg5 harg5 arg6 harg6 arg7 harg7 arg8 harg8 arg9 harg9 hc0 x0 x1 x2 x3).2.1 S64x1.size (by sl_kernel_rfl) y

/-- What the even case leaves in the first output's block: its pieces read back (over anything: they cover). -/
def out0_A_4 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i) (x0 : Vec F S64x256x200 .f32) (x1 : Vec F S64x256 .i32) (x2 : Vec F S64x256 .f32) (x3 : Vec F S64x256 .f32) : Vec F S64x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 x0 x1 x2 x3).1)
/-- What the even case leaves in the second output's block. -/
def out0_A_5 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i) (x0 : Vec F S64x256x200 .f32) (x1 : Vec F S64x256 .i32) (x2 : Vec F S64x256 .f32) (x3 : Vec F S64x256 .f32) : Vec F S64x1 .f32 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3).2.1)

/-- The odd case's pieces for the first output cover its block. -/
theorem cover0_B_4 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i) (x0 : Vec F S64x256x200 .f32) (x1 : Vec F S64x256 .i32) (x2 : Vec F S64x256 .f32) (x3 : Vec F S64x256 .f32) (xo4 : Vec F S64x1 .f32) (xo5 : Vec F S64x1 .f32) (y : S64x1.Idx) :
    ∃ pc ∈ (kernelRun0_B c i arg2 harg2 arg3 harg3 arg4 harg4 arg5 harg5 arg6 harg6 arg7 harg7 arg8 harg8 arg9 harg9 hc0 x0 x1 x2 x3 xo4 xo5).1, y ∈ pc.1.set :=
  View.cover_of_tiledL (kernelRun0_B c i arg2 harg2 arg3 harg3 arg4 harg4 arg5 harg5 arg6 harg6 arg7 harg7 arg8 harg8 arg9 harg9 hc0 x0 x1 x2 x3 xo4 xo5).1 S64x1.size (by sl_kernel_rfl) y
/-- The odd case's pieces for the second output cover its block. -/
theorem cover0_B_5 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i) (x0 : Vec F S64x256x200 .f32) (x1 : Vec F S64x256 .i32) (x2 : Vec F S64x256 .f32) (x3 : Vec F S64x256 .f32) (xo4 : Vec F S64x1 .f32) (xo5 : Vec F S64x1 .f32) (y : S64x1.Idx) :
    ∃ pc ∈ (kernelRun0_B c i arg2 harg2 arg3 harg3 arg4 harg4 arg5 harg5 arg6 harg6 arg7 harg7 arg8 harg8 arg9 harg9 hc0 x0 x1 x2 x3 xo4 xo5).2.1, y ∈ pc.1.set :=
  View.cover_of_tiledL (kernelRun0_B c i arg2 harg2 arg3 harg3 arg4 harg4 arg5 harg5 arg6 harg6 arg7 harg7 arg8 harg8 arg9 harg9 hc0 x0 x1 x2 x3 xo4 xo5).2.1 S64x1.size (by sl_kernel_rfl) y

/-- What the odd case leaves in the first output's block, from the input blocks and the running contents. -/
def out0_B_4 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i) (x0 : Vec F S64x256x200 .f32) (x1 : Vec F S64x256 .i32) (x2 : Vec F S64x256 .f32) (x3 : Vec F S64x256 .f32) (xo4 : Vec F S64x1 .f32) (xo5 : Vec F S64x1 .f32) : Vec F S64x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 x0 x1 x2 x3 xo4 xo5).1)
/-- What the odd case leaves in the second output's block. -/
def out0_B_5 (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i) (x0 : Vec F S64x256x200 .f32) (x1 : Vec F S64x256 .i32) (x2 : Vec F S64x256 .f32) (x3 : Vec F S64x256 .f32) (xo4 : Vec F S64x1 .f32) (xo5 : Vec F S64x1 .f32) : Vec F S64x1 .f32 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 xo4 xo5).2.1)

/-! ## What the output blocks hold after each point -/

/-- The two output blocks after the body at position `n` of the grid: at an even position the even case's result of
    that point's input blocks; at an odd position the odd case's result over what position `n - 1` left. -/
def outsAt0 (c : Dev nD) : (n : ℕ) → n < cfg0.N → Vec F S64x1 .f32 × Vec F S64x1 .f32
  | 0, hn =>
    let t : Fin cfg0.N := ⟨0, hn⟩
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr (Nat.zero_mod _)) (iblk m c 0 t) (iblk m c 1 t) (iblk m c 2 t) (iblk m c 3 t),
     out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr (Nat.zero_mod _)) (iblk m c 0 t) (iblk m c 1 t) (iblk m c 2 t) (iblk m c 3 t))
  | n + 1, hn =>
    let t : Fin cfg0.N := ⟨n + 1, hn⟩
    if h0 : (n + 1) % 2 = 0 then
      (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t))
    else
      (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
          (outsAt0 c n (Nat.lt_of_succ_lt hn)).1 (outsAt0 c n (Nat.lt_of_succ_lt hn)).2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
          (outsAt0 c n (Nat.lt_of_succ_lt hn)).1 (outsAt0 c n (Nat.lt_of_succ_lt hn)).2)

/-- At an even point: the even case's contents. -/
theorem outsAt0_A (c : Dev nD) (t : Fin cfg0.N) (h0 : t.val % 2 = 0) :
    outsAt0 m c t.val t.isLt =
      (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- At an odd point: the odd case's contents, over what the point before left. -/
theorem outsAt0_B (c : Dev nD) (t : Fin cfg0.N) (h0 : ¬t.val % 2 = 0) :
    outsAt0 m c t.val t.isLt =
      (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
          (outsAt0 m c (t.val - 1) (Nat.lt_of_le_of_lt (Nat.sub_le _ _) t.isLt)).1 (outsAt0 m c (t.val - 1) (Nat.lt_of_le_of_lt (Nat.sub_le _ _) t.isLt)).2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer
    at its block and the two outputs' at `outsAt0`; the invariant the scratch buffers and the generator register at
    some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At an odd point the first output's staging buffer holds what the body left at the even point before it: the
    point is not the first, the buffer was not written back in between, the window is live and uncut. -/
theorem before0_4_B (c : Dev nD) (t : Fin cfg0.N) (h0 : ¬t.val % 2 = 0) (d) :
    (dats m 0 c).before 4 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]
/-- The same for the second output. -/
theorem before0_5_B (c : Dev nD) (t : Fin cfg0.N) (h0 : ¬t.val % 2 = 0) (d) :
    (dats m 0 c).before 5 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks; an even point is the even case, an odd point the odd
    case over what the even point before it left in the output blocks; the invariant hands the body its scratch
    buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 16 := lt_of_lt_of_eq t.isLt (show cfg0.N = 16 from N_0)
  by_cases h0 : t.val % 2 = 0
  · rw [outsAt0_A m c t h0]
    dsimp only
    unfold out0_A_4 out0_A_5
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _ _ _ _)
  · rw [outsAt0_B m c t h0]
    dsimp only
    simp only [before0_4_B m c t h0, before0_5_B m c t h0]
    unfold out0_B_4 out0_B_5
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, ⟨%e4, H4⟩, ⟨%e5, H5⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every array of the pipeline at what the library computes
    from the proof data (an output array: its blocks as written back) and every other buffer at what the host
    operations after the region make of them. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KernelIdeal.Blocks.lean ====
/-
  Which part of the argument arrays each grid point's blocks are.

  Point `t` of the 8 × 2 grid (row-major) has block coordinates `(t / 2, t % 2)`: its input blocks are rows
  `64 (t / 2) … 64 (t / 2) + 63` and steps `256 (t % 2) … 256 (t % 2) + 255` of the arrays, and the two output
  windows' blocks are rows `64 (t / 2) …` of the [512, 1] output arrays whatever `t % 2` is.
-/
import proofs.«421785_j36747740185105_3_alg».proof.Proof.KernelIdeal.Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The windows' block indices at every point (decided over the sixteen points). -/
theorem idx_facts : ∀ t : Fin cfg0.N,
    (win0_0.index t 0 = t.val / 2 ∧ win0_0.index t 1 = t.val % 2 ∧ win0_0.index t 2 = 0)
    ∧ (win0_1.index t 0 = t.val / 2 ∧ win0_1.index t 1 = t.val % 2)
    ∧ (win0_2.index t 0 = t.val / 2 ∧ win0_2.index t 1 = t.val % 2)
    ∧ (win0_3.index t 0 = t.val / 2 ∧ win0_3.index t 1 = t.val % 2)
    ∧ (win0_4.index t 0 = t.val / 2 ∧ win0_4.index t 1 = 0)
    ∧ (win0_5.index t 0 = t.val / 2 ∧ win0_5.index t 1 = 0) :=
  (by decide +kernel : ∀ t : Fin grid0.N,
    (win0_0.index t 0 = t.val / 2 ∧ win0_0.index t 1 = t.val % 2 ∧ win0_0.index t 2 = 0)
    ∧ (win0_1.index t 0 = t.val / 2 ∧ win0_1.index t 1 = t.val % 2)
    ∧ (win0_2.index t 0 = t.val / 2 ∧ win0_2.index t 1 = t.val % 2)
    ∧ (win0_3.index t 0 = t.val / 2 ∧ win0_3.index t 1 = t.val % 2)
    ∧ (win0_4.index t 0 = t.val / 2 ∧ win0_4.index t 1 = 0)
    ∧ (win0_5.index t 0 = t.val / 2 ∧ win0_5.index t 1 = 0))

theorem lt16 (t : Fin cfg0.N) : t.val < 16 := lt_of_lt_of_eq t.isLt (show cfg0.N = 16 from N_0)

/-- Row `p` of point `t`'s blocks is row `64 (t / 2) + p` of the arrays. -/
abbrev rowAt (t : Fin cfg0.N) (p : Fin 64) : Fin 512 :=
  ⟨64 * (t.val / 2) + p.val, by have := lt16 t; have := p.isLt; omega⟩
/-- Step `s` of point `t`'s blocks is step `256 (t % 2) + s` of the arrays. -/
abbrev stepAt (t : Fin cfg0.N) (s : Fin 256) : Fin 512 :=
  ⟨256 * (t.val % 2) + s.val, by have := s.isLt; omega⟩

/-- The logits' block at a point. -/
theorem blk0_apply (c : Dev nD) (t : Fin cfg0.N) (p : Fin 64) (s : Fin 256) (k : Fin 200) :
    (iblk m c 0 t : Vec F S64x256x200 .f32) (ix3 p s k)
      = (V m c main_arg0 : Vec F S512x512x200 .f32) (ix3 (rowAt t p) (stepAt t s) k) := by
  obtain ⟨⟨h0, h1, h2⟩, -⟩ := idx_facts t
  unfold iblk
  rw [View.read_apply]
  show V m c main_arg0 _ = V m c main_arg0 _
  congr 1
  funext a
  apply Fin.ext
  match a with
  | ⟨0, _⟩ => show win0_0.index t 0 * 64 + 1 * p.val = 64 * (t.val / 2) + p.val; rw [h0]; omega
  | ⟨1, _⟩ => show win0_0.index t 1 * 256 + 1 * s.val = 256 * (t.val % 2) + s.val; rw [h1]; omega
  | ⟨2, _⟩ => show win0_0.index t 2 * 200 + 1 * k.val = k.val; rw [h2]; omega

/-- The actions' block at a point. -/
theorem blk1_apply (c : Dev nD) (t : Fin cfg0.N) (p : Fin 64) (s : Fin 256) :
    (iblk m c 1 t : Vec F S64x256 .i32) (ix2 p s) = (V m c main_arg1 : Vec F S512x512 .i32) (ix2 (rowAt t p) (stepAt t s)) := by
  obtain ⟨-, ⟨h0, h1⟩, -⟩ := idx_facts t
  unfold iblk
  rw [View.read_apply]
  show V m c main_arg1 _ = V m c main_arg1 _
  congr 1
  funext a
  apply Fin.ext
  match a with
  | ⟨0, _⟩ => show win0_1.index t 0 * 64 + 1 * p.val = 64 * (t.val / 2) + p.val; rw [h0]; omega
  | ⟨1, _⟩ => show win0_1.index t 1 * 256 + 1 * s.val = 256 * (t.val % 2) + s.val; rw [h1]; omega

/-- The rewards' block at a point. -/
theorem blk2_apply (c : Dev nD) (t : Fin cfg0.N) (p : Fin 64) (s : Fin 256) :
    (iblk m c 2 t : Vec F S64x256 .f32) (ix2 p s) = (V m c main_arg2 : Vec F S512x512 .f32) (ix2 (rowAt t p) (stepAt t s)) := by
  obtain ⟨-, -, ⟨h0, h1⟩, -⟩ := idx_facts t
  unfold iblk
  rw [View.read_apply]
  show V m c main_arg2 _ = V m c main_arg2 _
  congr 1
  funext a
  apply Fin.ext
  match a with
  | ⟨0, _⟩ => show win0_2.index t 0 * 64 + 1 * p.val = 64 * (t.val / 2) + p.val; rw [h0]; omega
  | ⟨1, _⟩ => show win0_2.index t 1 * 256 + 1 * s.val = 256 * (t.val % 2) + s.val; rw [h1]; omega

/-- The terminals' block at a point. -/
theorem blk3_apply (c : Dev nD) (t : Fin cfg0.N) (p : Fin 64) (s : Fin 256) :
    (iblk m c 3 t : Vec F S64x256 .f32) (ix2 p s) = (V m c main_arg3 : Vec F S512x512 .f32) (ix2 (rowAt t p) (stepAt t s)) := by
  obtain ⟨-, -, -, ⟨h0, h1⟩, -⟩ := idx_facts t
  unfold iblk
  rw [View.read_apply]
  show V m c main_arg3 _ = V m c main_arg3 _
  congr 1
  funext a
  apply Fin.ext
  match a with
  | ⟨0, _⟩ => show win0_3.index t 0 * 64 + 1 * p.val = 64 * (t.val / 2) + p.val; rw [h0]; omega
  | ⟨1, _⟩ => show win0_3.index t 1 * 256 + 1 * s.val = 256 * (t.val % 2) + s.val; rw [h1]; omega

end Cert.KernelIdeal.Hand

end
-- ==== Proof.KernelIdeal.Pieces.lean ====
/-
  What the body leaves in the two output blocks, in closed form.

  Before its loop the body re-lays the actions' and terminals' blocks into two scratch buffers, eight chunks of 32
  steps each; the loop's eight trips read chunk `k` of the logits' block and of the two scratch buffers and carry a
  vector of 64 running totals, starting from zero; after the loop the carried totals are added to the first output
  block and the rewards' row sums to the second. At an even point the blocks were cleared first, at an odd point they
  hold what the point before left. One trip, opened once: it is the body's trip payload of the carried value and of
  the three loads at the trip's offsets.
-/
import proofs.«421785_j36747740185105_3_alg».proof.Proof.KernelIdeal.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch buffer of actions after the re-laying: row `k` holds columns `32 k … 32 k + 31` of the block. -/
def scrA (arg8 : Memref sig .tc .vmem S8x64x32 .i32) (x1 : Vec F S64x256 .i32) : arg8.view.ty.Contents (Elt F) :=
  arg8.view.writes (Elt F) arg8.view.junk
    [⟨Rect.unit ![7, 0, 0] ![1, 64, 32] inb_S8x64x32_S1x64x32_7_0_0, k0_pay2 x1⟩,
     ⟨Rect.unit ![6, 0, 0] S1x64x32.size inb_S8x64x32_S1x64x32_6_0_0, k0_pay23 x1⟩,
     ⟨Rect.unit ![5, 0, 0] S1x64x32.size inb_S8x64x32_S1x64x32_5_0_0, k0_pay21 x1⟩,
     ⟨Rect.unit ![4, 0, 0] S1x64x32.size inb_S8x64x32_S1x64x32_4_0_0, k0_pay19 x1⟩,
     ⟨Rect.unit ![3, 0, 0] S1x64x32.size inb_S8x64x32_S1x64x32_3_0_0, k0_pay17 x1⟩,
     ⟨Rect.unit ![2, 0, 0] S1x64x32.size inb_S8x64x32_S1x64x32_2_0_0, k0_pay14 x1⟩,
     ⟨Rect.unit ![1, 0, 0] S1x64x32.size inb_S8x64x32_S1x64x32_1_0_0, k0_pay12 x1⟩,
     ⟨Rect.unit ![0, 0, 0] S1x64x32.size inb_S8x64x32_S1x64x32_0_0_0, k0_pay10 x1⟩]

/-- The scratch buffer of terminal weights after the re-laying. -/
def scrT (arg9 : Memref sig .tc .vmem S8x64x32 .f32) (x3 : Vec F S64x256 .f32) : arg9.view.ty.Contents (Elt F) :=
  arg9.view.writes (Elt F) arg9.view.junk
    [⟨Rect.unit ![7, 0, 0] ![1, 64, 32] inb_S8x64x32_S1x64x32_7_0_0, k0_pay3 x3⟩,
     ⟨Rect.unit ![6, 0, 0] ![1, 64, 32] inb_S8x64x32_S1x64x32_6_0_0, k0_pay1 (k0_pay24 x3)⟩,
     ⟨Rect.unit ![5, 0, 0] S1x64x32.size inb_S8x64x32_S1x64x32_5_0_0, k0_pay22 x3⟩,
     ⟨Rect.unit ![4, 0, 0] S1x64x32.size inb_S8x64x32_S1x64x32_4_0_0, k0_pay20 x3⟩,
     ⟨Rect.unit ![3, 0, 0] S1x64x32.size inb_S8x64x32_S1x64x32_3_0_0, k0_pay18 x3⟩,
     ⟨Rect.unit ![2, 0, 0] S1x64x32.size inb_S8x64x32_S1x64x32_2_0_0, k0_pay16 (k0_pay15 x3)⟩,
     ⟨Rect.unit ![1, 0, 0] S1x64x32.size inb_S8x64x32_S1x64x32_1_0_0, k0_pay13 x3⟩,
     ⟨Rect.unit ![0, 0, 0] S1x64x32.size inb_S8x64x32_S1x64x32_0_0_0, k0_pay11 x3⟩]

/-- The loop's result: the carried totals after its eight trips over the logits' block and the two scratch buffers,
    from zero. -/
def loopv (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (x0 : Vec F S64x256x200 .f32) (x1 : Vec F S64x256 .i32) (x3 : Vec F S64x256 .f32) : FVec F S64x1 .f32 :=
  st_k0_t1 (F := F) Variants.none c none i arg2 harg2 arg3 harg3 arg4 harg4 arg5 harg5 arg6 harg6 arg7 harg7 arg8 harg8 arg9 harg9 (harg2.unread x0) (scrA arg8 x1) (scrT arg9 x3)
    (k0_pay4 (F := F)) (Scf.trips (0#32) (Scalar.addi 0#32 8#32) 1#32)

theorem hz2 : (![0, 0] : Fin 2 → Nat) = fun _ => 0 := by funext a; fin_cases a <;> rfl

/-- Even point, first output: the zero fill plus the loop's totals. -/
theorem out0_A_4_eq (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i) (x0 : Vec F S64x256x200 .f32) (x1 : Vec F S64x256 .i32) (x2 : Vec F S64x256 .f32) (x3 : Vec F S64x256 .f32) :
    out0_A_4 c i arg2 harg2 arg3 harg3 arg4 harg4 arg5 harg5 arg6 harg6 arg7 harg7 arg8 harg8 arg9 harg9 hc0 x0 x1 x2 x3 = k0_pay6 (loopv c i arg2 harg2 arg3 harg3 arg4 harg4 arg5 harg5 arg6 harg6 arg7 harg7 arg8 harg8 arg9 harg9 x0 x1 x3) (k0_pay8 (F := F)) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S64x1) hz2]
  simp only [View.readAt_eq_ld, harg3.read_unread, harg5.read_unread, View.ld_unit_zero (S := S64x256) hz2,
    View.readCov_unit_zero (S := S64x1) _ hz2]
  rfl

/-- Even point, second output: the zero fill plus the rewards' row sums. -/
theorem out0_A_5_eq (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : cond0_0 i) (x0 : Vec F S64x256x200 .f32) (x1 : Vec F S64x256 .i32) (x2 : Vec F S64x256 .f32) (x3 : Vec F S64x256 .f32) :
    out0_A_5 c i arg2 harg2 arg3 harg3 arg4 harg4 arg5 harg5 arg6 harg6 arg7 harg7 arg8 harg8 arg9 harg9 hc0 x0 x1 x2 x3 = k0_pay7 x2 (k0_pay9 (F := F)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S64x1) hz2]
  simp only [View.readAt_eq_ld, harg4.read_unread, View.ld_unit_zero (S := S64x256) hz2,
    View.readCov_unit_zero (S := S64x1) _ hz2]

/-- Odd point, first output: the running totals plus the loop's. -/
theorem out0_B_4_eq (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i) (x0 : Vec F S64x256x200 .f32) (x1 : Vec F S64x256 .i32) (x2 : Vec F S64x256 .f32) (x3 : Vec F S64x256 .f32) (xo4 : Vec F S64x1 .f32) (xo5 : Vec F S64x1 .f32) :
    out0_B_4 c i arg2 harg2 arg3 harg3 arg4 harg4 arg5 harg5 arg6 harg6 arg7 harg7 arg8 harg8 arg9 harg9 hc0 x0 x1 x2 x3 xo4 xo5 = k0_pay6 (loopv c i arg2 harg2 arg3 harg3 arg4 harg4 arg5 harg5 arg6 harg6 arg7 harg7 arg8 harg8 arg9 harg9 x0 x1 x3) xo4 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xo4 xo5)]
  unfold kernelRun0_B
  dsimp only
  sl_unfold_words
  rw [View.canon_unit_zero (S := S64x1) hz2]
  simp only [View.readAt_eq_ld, harg3.read_unread, harg5.read_unread, harg6.read_unread, View.ld_unit_zero (S := S64x256) hz2,
    View.ld_unit_zero (S := S64x1) hz2]
  rfl

/-- Odd point, second output: the running totals plus the rewards' row sums. -/
theorem out0_B_5_eq (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (hc0 : ¬cond0_0 i) (x0 : Vec F S64x256x200 .f32) (x1 : Vec F S64x256 .i32) (x2 : Vec F S64x256 .f32) (x3 : Vec F S64x256 .f32) (xo4 : Vec F S64x1 .f32) (xo5 : Vec F S64x1 .f32) :
    out0_B_5 c i arg2 harg2 arg3 harg3 arg4 harg4 arg5 harg5 arg6 harg6 arg7 harg7 arg8 harg8 arg9 harg9 hc0 x0 x1 x2 x3 xo4 xo5 = k0_pay7 x2 xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xo4 xo5)]
  unfold kernelRun0_B
  dsimp only
  sl_unfold_words
  rw [View.canon_unit_zero (S := S64x1) hz2]
  simp only [View.readAt_eq_ld, harg4.read_unread, harg7.read_unread, View.ld_unit_zero (S := S64x256) hz2,
    View.ld_unit_zero (S := S64x1) hz2]

end Cert.KernelIdeal.Hand

end
-- ==== Proof.KernelIdeal.Relay.lean ====
/-
  The kernel body re-lays its actions' and terminals' blocks (64 rows by 256 steps) into eight chunks of 32 steps
  before its loop: chunk `c` is the block's columns `32 c … 32 c + 31`, cut out as a slice and reshaped to one row of
  a scratch buffer of shape [8, 64, 32]. Read at an index these payloads are the block at row `p`, column `32 c + q`.
-/
import proofs.«421785_j36747740185105_3_alg».proof.Proof.Gen.KernelIdeal.Skeleton
import proofs.«421785_j36747740185105_3_alg».proof.Proof.Gen.KernelIdeal
import Idealize.ShloMosaic.Lib.ValueIdx
import Idealize.ShloMosaic.Lib.ValueLayout
import Idealize.ShloMosaic.Lib.Pipeline.Value

noncomputable section

namespace Cert.KernelIdeal.Relay

open Cert.KernelIdeal Cert.KernelIdeal.Gen
open Idealize.ShloMosaic Idealize.ShloMosaic.ValueIdx

variable {F : FTy → Type} [FloatOps F]

/-- Column `32 c + q` of a block of 256 steps. -/
abbrev col (c : Fin 8) (q : Fin 32) : Fin 256 := ⟨32 * c.val + q.val, by have := c.isLt; have := q.isLt; omega⟩

/-- A slice of 32 columns starting at column `o`, read at `(p, q)`, is the block at `(p, o + q)`: the row offset is
    zero and the strides are one, so each coordinate of the operand's index is the offset plus the slice's coordinate. -/
theorem slice_apply {α : Type} (v : S64x256.Idx → α) (o : Nat) (hs : S64x256.Slices ![0, o] S64x32) (p : Fin 64) (q : Fin 32)
    (ho : o + q.val < 256) :
    extractStridedSlice S64x32 ![0, o] v hs (ix2 p q) = v (ix2 p (⟨o + q.val, ho⟩ : Fin 256)) :=
  extractStridedSlice_apply _ v hs (ix2 p q) (ix2 p (⟨o + q.val, ho⟩ : Fin 256)) fun a =>
    match a with
    | ⟨0, _⟩ => (Nat.zero_add p.val).symm
    | ⟨1, _⟩ => rfl

/-- The slice reshaped from [64, 32] to [1, 64, 32] and read at `(0, p, q)`: the leading unit axis does not move the
    row-major position, so this is the slice at `(p, q)`, that is the block at `(p, o + q)`. The element type is
    arbitrary: nothing is computed, entries are only moved. -/
theorem relay_apply {α : Type} (v : S64x256.Idx → α) (o : Nat) (hs : S64x256.Slices ![0, o] S64x32)
    (hc : S64x32.ShapeCasts S1x64x32) (p : Fin 64) (q : Fin 32) (ho : o + q.val < 256) :
    shapeCast S1x64x32 (extractStridedSlice S64x32 ![0, o] v hs) hc (ix3 (0 : Fin 1) p q)
      = v (ix2 p (⟨o + q.val, ho⟩ : Fin 256)) :=
  (shapeCast_ab_1ab_apply _ hc 0 p q).trans (slice_apply v o hs p q ho)

/-! Each payload below is `relay_apply` at the offset `o = 32 c` of its chunk `c`; the column `⟨o + q, _⟩` is
    `col c q` by evaluating `32 * c`. -/

theorem pay10_apply (v3 : Vec F S64x256 .i32) (p : Fin 64) (q : Fin 32) : k0_pay10 (F := F) v3 (ix3 (0 : Fin 1) p q) = v3 (ix2 p (col 0 q)) :=
  relay_apply v3 0 slices_S64x256_o0_0_S64x32 shapeCasts_S64x32_S1x64x32 p q _
theorem pay12_apply (v3 : Vec F S64x256 .i32) (p : Fin 64) (q : Fin 32) : k0_pay12 (F := F) v3 (ix3 (0 : Fin 1) p q) = v3 (ix2 p (col 1 q)) :=
  relay_apply v3 32 slices_S64x256_o0_32_S64x32 shapeCasts_S64x32_S1x64x32 p q _
theorem pay14_apply (v3 : Vec F S64x256 .i32) (p : Fin 64) (q : Fin 32) : k0_pay14 (F := F) v3 (ix3 (0 : Fin 1) p q) = v3 (ix2 p (col 2 q)) :=
  relay_apply v3 64 slices_S64x256_o0_64_S64x32 shapeCasts_S64x32_S1x64x32 p q _
theorem pay17_apply (v3 : Vec F S64x256 .i32) (p : Fin 64) (q : Fin 32) : k0_pay17 (F := F) v3 (ix3 (0 : Fin 1) p q) = v3 (ix2 p (col 3 q)) :=
  relay_apply v3 96 slices_S64x256_o0_96_S64x32 shapeCasts_S64x32_S1x64x32 p q _
theorem pay19_apply (v3 : Vec F S64x256 .i32) (p : Fin 64) (q : Fin 32) : k0_pay19 (F := F) v3 (ix3 (0 : Fin 1) p q) = v3 (ix2 p (col 4 q)) :=
  relay_apply v3 128 slices_S64x256_o0_128_S64x32 shapeCasts_S64x32_S1x64x32 p q _
theorem pay21_apply (v3 : Vec F S64x256 .i32) (p : Fin 64) (q : Fin 32) : k0_pay21 (F := F) v3 (ix3 (0 : Fin 1) p q) = v3 (ix2 p (col 5 q)) :=
  relay_apply v3 160 slices_S64x256_o0_160_S64x32 shapeCasts_S64x32_S1x64x32 p q _
theorem pay23_apply (v3 : Vec F S64x256 .i32) (p : Fin 64) (q : Fin 32) : k0_pay23 (F := F) v3 (ix3 (0 : Fin 1) p q) = v3 (ix2 p (col 6 q)) :=
  relay_apply v3 192 slices_S64x256_o0_192_S64x32 shapeCasts_S64x32_S1x64x32 p q _
theorem pay2_apply (v3 : Vec F S64x256 .i32) (p : Fin 64) (q : Fin 32) : k0_pay2 (F := F) v3 (ix3 (0 : Fin 1) p q) = v3 (ix2 p (col 7 q)) :=
  relay_apply v3 224 slices_S64x256_o0_224_S64x32 shapeCasts_S64x32_S1x64x32 p q _

theorem pay11_apply (v4 : Vec F S64x256 .f32) (p : Fin 64) (q : Fin 32) : k0_pay11 (F := F) v4 (ix3 (0 : Fin 1) p q) = v4 (ix2 p (col 0 q)) :=
  relay_apply v4 0 slices_S64x256_o0_0_S64x32 shapeCasts_S64x32_S1x64x32 p q _
theorem pay13_apply (v4 : Vec F S64x256 .f32) (p : Fin 64) (q : Fin 32) : k0_pay13 (F := F) v4 (ix3 (0 : Fin 1) p q) = v4 (ix2 p (col 1 q)) :=
  relay_apply v4 32 slices_S64x256_o0_32_S64x32 shapeCasts_S64x32_S1x64x32 p q _
theorem pay16_15_apply (v4 : Vec F S64x256 .f32) (p : Fin 64) (q : Fin 32) : k0_pay16 (F := F) (k0_pay15 (F := F) v4) (ix3 (0 : Fin 1) p q) = v4 (ix2 p (col 2 q)) :=
  relay_apply v4 64 slices_S64x256_o0_64_S64x32 shapeCasts_S64x32_S1x64x32 p q _
theorem pay18_apply (v4 : Vec F S64x256 .f32) (p : Fin 64) (q : Fin 32) : k0_pay18 (F := F) v4 (ix3 (0 : Fin 1) p q) = v4 (ix2 p (col 3 q)) :=
  relay_apply v4 96 slices_S64x256_o0_96_S64x32 shapeCasts_S64x32_S1x64x32 p q _
theorem pay20_apply (v4 : Vec F S64x256 .f32) (p : Fin 64) (q : Fin 32) : k0_pay20 (F := F) v4 (ix3 (0 : Fin 1) p q) = v4 (ix2 p (col 4 q)) :=
  relay_apply v4 128 slices_S64x256_o0_128_S64x32 shapeCasts_S64x32_S1x64x32 p q _
theorem pay22_apply (v4 : Vec F S64x256 .f32) (p : Fin 64) (q : Fin 32) : k0_pay22 (F := F) v4 (ix3 (0 : Fin 1) p q) = v4 (ix2 p (col 5 q)) :=
  relay_apply v4 160 slices_S64x256_o0_160_S64x32 shapeCasts_S64x32_S1x64x32 p q _
theorem pay1_24_apply (v4 : Vec F S64x256 .f32) (p : Fin 64) (q : Fin 32) : k0_pay1 (F := F) (k0_pay24 (F := F) v4) (ix3 (0 : Fin 1) p q) = v4 (ix2 p (col 6 q)) :=
  relay_apply v4 192 slices_S64x256_o0_192_S64x32 shapeCasts_S64x32_S1x64x32 p q _
theorem pay3_apply (v4 : Vec F S64x256 .f32) (p : Fin 64) (q : Fin 32) : k0_pay3 (F := F) v4 (ix3 (0 : Fin 1) p q) = v4 (ix2 p (col 7 q)) :=
  relay_apply v4 224 slices_S64x256_o0_224_S64x32 shapeCasts_S64x32_S1x64x32 p q _

end Cert.KernelIdeal.Relay

end
-- ==== Proof.KernelIdeal.Reads.lean ====
/-
  The three loads of one trip of the body's loop, read at an index, and the trip itself.

  Trip `k` loads steps `32 k … 32 k + 31` of the logits' block, and row `k` of each scratch buffer, which after the
  re-laying holds columns `32 k … 32 k + 31` of the actions' (terminals') block: so all three loads read the block at
  step `32 k + q`. The trip returns the body's trip payload of the carried totals and these three loads.
-/
import proofs.«421785_j36747740185105_3_alg».proof.Proof.KernelIdeal.Pieces
import proofs.«421785_j36747740185105_3_alg».proof.Proof.KernelIdeal.Relay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Step `32 k + q` of a block of 256 steps: step `q` of the chunk trip `k` works on. -/
abbrev stepOf (k : Fin k0_t1_loop.trips) (q : Fin 32) : Fin 256 :=
  ⟨32 * k.val + q.val, by have := Nat.lt_of_lt_of_le k.isLt k0_t1_abs.2.1; have := q.isLt; omega⟩

/-- One trip, from the carried totals `acc`: the trip payload of `acc` and the three loads at the trip's offsets. -/
theorem tripR_eq (𝒱 : Variants) (bd : Option 𝒱.V) (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole)
    (X_arg2 : BufTy.Contents (Elt F) arg2.view.ty) (X_arg8 : BufTy.Contents (Elt F) arg8.view.ty) (X_arg9 : BufTy.Contents (Elt F) arg9.view.ty)
    (k : Fin k0_t1_loop.trips) (acc : FVec F S64x1 .f32) :
    tripR_k0_t1 (F := F) 𝒱 c bd i arg2 harg2 arg3 harg3 arg4 harg4 arg5 harg5 arg6 harg6 arg7 harg7 arg8 harg8 arg9 harg9 X_arg2 X_arg8 X_arg9 k acc
      = k0_pay5 acc
          (View.readAt (Elt F) arg2.view (Rect.unit (s := S64x256x200) (k0_off1 k) S64x32x200.size (k0_off1_inb k)).toLoadRect X_arg2)
          (View.readAt (Elt F) arg8.view (Rect.unit (s := S8x64x32) (k0_off2 k) S1x64x32.size (k0_off2_inb k)).toLoadRect X_arg8)
          (View.readAt (Elt F) arg9.view (Rect.unit (s := S8x64x32) (k0_off2 k) S1x64x32.size (k0_off2_inb k)).toLoadRect X_arg9) := by
  unfold tripR_k0_t1
  unfold trip_k0_t1
  rfl

/-- The logits' load of trip `k` reads the block at steps `32 k + q`. -/
theorem read_logits (arg2 : Memref sig .tc .vmem S64x256x200 .f32) (harg2 : arg2.IsWhole) (x0 : Vec F S64x256x200 .f32)
    (k : Fin k0_t1_loop.trips) (p : Fin 64) (q : Fin 32) (kk : Fin 200) :
    View.readAt (Elt F) arg2.view (Rect.unit (s := S64x256x200) (k0_off1 k) S64x32x200.size (k0_off1_inb k)).toLoadRect (harg2.unread x0) (ix3 p q kk)
      = x0 (ix3 p (stepOf k q) kk) := by
  rw [View.readAt_apply, harg2.read_unread]
  refine congrArg x0 (funext fun a => Fin.ext ?_)
  simp only [LoadRect.idx_apply, Rect.off_unit, Rect.stride_unit, Nat.one_mul, k0_off1_eq]
  match a with
  | ⟨0, _⟩ => exact Nat.zero_add _
  | ⟨1, _⟩ => rfl
  | ⟨2, _⟩ => exact Nat.zero_add _

/-- A block of 64 rows by 256 steps re-laid into eight chunks of 32 steps, as one function of the scratch buffer's
    index: chunk `c`, row `p`, position `q` holds the block at row `p`, step `32 c + q`. -/
def relaid {α : Type} (v : S64x256.Idx → α) : S8x64x32.Idx → α := fun j =>
  v (ix2 (⟨(j 1).val, (j 1).isLt⟩ : Fin 64)
    (⟨32 * (j 0).val + (j 2).val, by
      have h0 : (j 0).val < 8 := (j 0).isLt
      have h2 : (j 2).val < 32 := (j 2).isLt
      omega⟩ : Fin 256))

/-- A payload that at `(0, p, q)` is the block at `(p, 32 c + q)`, stored at row `c` of the scratch buffer, is the
    re-laid block at the buffer's index: the store's rectangle has offsets `(c, 0, 0)` and unit strides, so its index
    `(0, p, q)` sits at `(c, p, q)`. -/
theorem piece_relaid {α : Type} (v : S64x256.Idx → α) (c : Nat) (hc : c < 8)
    (inb : ∀ a, (![c, 0, 0] : Fin 3 → Nat) a + S1x64x32.size a ≤ S8x64x32.size a)
    (w : S1x64x32.Idx → α)
    (hw : ∀ (p : Fin 64) (q : Fin 32), w (ix3 (0 : Fin 1) p q) = v (ix2 p (⟨32 * c + q.val, by have := q.isLt; omega⟩ : Fin 256)))
    (x : S1x64x32.Idx) :
    w x = relaid v ((Rect.unit (s := S8x64x32) ![c, 0, 0] S1x64x32.size inb).emb x) := by
  obtain ⟨a, p, q, rfl⟩ : ∃ (a : Fin 1) (p : Fin 64) (q : Fin 32), x = ix3 a p q := ⟨x 0, x 1, x 2, eq_ix3 x⟩
  obtain rfl : a = 0 := Subsingleton.elim _ _
  rw [hw]
  unfold relaid
  refine congrArg v (funext fun a => ?_)
  match a with
  | ⟨0, _⟩ => exact Fin.ext (by show p.val = 0 + 1 * p.val; omega)
  | ⟨1, _⟩ => exact Fin.ext (by show 32 * c + q.val = 32 * (c + 1 * 0) + (0 + 1 * q.val); omega)

/-- An index of the scratch buffer whose first coordinate is `c` lies in row `c`'s rectangle. -/
theorem mem_row (c : Nat) (inb : ∀ a, (![c, 0, 0] : Fin 3 → Nat) a + S1x64x32.size a ≤ S8x64x32.size a)
    (y : S8x64x32.Idx) (h : (y 0).val = c) :
    y ∈ (Rect.unit (s := S8x64x32) ![c, 0, 0] S1x64x32.size inb).set := by
  rw [Rect.mem_set_unit]
  intro a
  have h1 : (y 1).val < 64 := (y 1).isLt
  have h2 : (y 2).val < 32 := (y 2).isLt
  match a with
  | ⟨0, _⟩ => show c ≤ (y 0).val ∧ (y 0).val < c + 1; omega
  | ⟨1, _⟩ => show 0 ≤ (y 1).val ∧ (y 1).val < 0 + 64; omega
  | ⟨2, _⟩ => show 0 ≤ (y 2).val ∧ (y 2).val < 0 + 32; omega
/-- Eight stores, one per row of the scratch buffer, whose payloads are the eight chunks of one block, leave the
    re-laid block at every index: each payload agrees with the re-laid block on its row, and every index lies in the
    row its first coordinate names. -/
theorem canon_rows {e : EltTy} (v : S64x256.Idx → Elt F e) (w7 w6 w5 w4 w3 w2 w1 w0 : S1x64x32.Idx → Elt F e)
    (h7 : ∀ (p : Fin 64) (q : Fin 32), w7 (ix3 (0 : Fin 1) p q) = v (ix2 p (Relay.col 7 q)))
    (h6 : ∀ (p : Fin 64) (q : Fin 32), w6 (ix3 (0 : Fin 1) p q) = v (ix2 p (Relay.col 6 q)))
    (h5 : ∀ (p : Fin 64) (q : Fin 32), w5 (ix3 (0 : Fin 1) p q) = v (ix2 p (Relay.col 5 q)))
    (h4 : ∀ (p : Fin 64) (q : Fin 32), w4 (ix3 (0 : Fin 1) p q) = v (ix2 p (Relay.col 4 q)))
    (h3 : ∀ (p : Fin 64) (q : Fin 32), w3 (ix3 (0 : Fin 1) p q) = v (ix2 p (Relay.col 3 q)))
    (h2 : ∀ (p : Fin 64) (q : Fin 32), w2 (ix3 (0 : Fin 1) p q) = v (ix2 p (Relay.col 2 q)))
    (h1 : ∀ (p : Fin 64) (q : Fin 32), w1 (ix3 (0 : Fin 1) p q) = v (ix2 p (Relay.col 1 q)))
    (h0 : ∀ (p : Fin 64) (q : Fin 32), w0 (ix3 (0 : Fin 1) p q) = v (ix2 p (Relay.col 0 q)))
    (y : S8x64x32.Idx) :
    View.canon (Val := Elt F) (s := S8x64x32) (e := e)
      [⟨Rect.unit ![7, 0, 0] S1x64x32.size inb_S8x64x32_S1x64x32_7_0_0, w7⟩,
       ⟨Rect.unit ![6, 0, 0] S1x64x32.size inb_S8x64x32_S1x64x32_6_0_0, w6⟩,
       ⟨Rect.unit ![5, 0, 0] S1x64x32.size inb_S8x64x32_S1x64x32_5_0_0, w5⟩,
       ⟨Rect.unit ![4, 0, 0] S1x64x32.size inb_S8x64x32_S1x64x32_4_0_0, w4⟩,
       ⟨Rect.unit ![3, 0, 0] S1x64x32.size inb_S8x64x32_S1x64x32_3_0_0, w3⟩,
       ⟨Rect.unit ![2, 0, 0] S1x64x32.size inb_S8x64x32_S1x64x32_2_0_0, w2⟩,
       ⟨Rect.unit ![1, 0, 0] S1x64x32.size inb_S8x64x32_S1x64x32_1_0_0, w1⟩,
       ⟨Rect.unit ![0, 0, 0] S1x64x32.size inb_S8x64x32_S1x64x32_0_0_0, w0⟩] y = relaid v y := by
  refine View.canon_apply_of_pieces (relaid v) _ ?_ y ?_
  · intro p hp
    simp only [List.mem_cons, List.mem_nil_iff, or_false] at hp
    rcases hp with rfl | rfl | rfl | rfl | rfl | rfl | rfl | rfl
    · exact piece_relaid v 7 (by omega) inb_S8x64x32_S1x64x32_7_0_0 w7 h7
    · exact piece_relaid v 6 (by omega) inb_S8x64x32_S1x64x32_6_0_0 w6 h6
    · exact piece_relaid v 5 (by omega) inb_S8x64x32_S1x64x32_5_0_0 w5 h5
    · exact piece_relaid v 4 (by omega) inb_S8x64x32_S1x64x32_4_0_0 w4 h4
    · exact piece_relaid v 3 (by omega) inb_S8x64x32_S1x64x32_3_0_0 w3 h3
    · exact piece_relaid v 2 (by omega) inb_S8x64x32_S1x64x32_2_0_0 w2 h2
    · exact piece_relaid v 1 (by omega) inb_S8x64x32_S1x64x32_1_0_0 w1 h1
    · exact piece_relaid v 0 (by omega) inb_S8x64x32_S1x64x32_0_0_0 w0 h0
  · have hy : (y 0).val < 8 := (y 0).isLt
    have hc : (y 0).val = 7 ∨ (y 0).val = 6 ∨ (y 0).val = 5 ∨ (y 0).val = 4 ∨ (y 0).val = 3 ∨ (y 0).val = 2
        ∨ (y 0).val = 1 ∨ (y 0).val = 0 := by omega
    rcases hc with h | h | h | h | h | h | h | h
    · exact ⟨_, List.mem_cons_self, mem_row 7 inb_S8x64x32_S1x64x32_7_0_0 y h⟩
    · exact ⟨_, List.mem_cons_of_mem _ List.mem_cons_self, mem_row 6 inb_S8x64x32_S1x64x32_6_0_0 y h⟩
    · exact ⟨_, List.mem_cons_of_mem _ (List.mem_cons_of_mem _ List.mem_cons_self), mem_row 5 inb_S8x64x32_S1x64x32_5_0_0 y h⟩
    · exact ⟨_, List.mem_cons_of_mem _ (List.mem_cons_of_mem _ (List.mem_cons_of_mem _ List.mem_cons_self)), mem_row 4 inb_S8x64x32_S1x64x32_4_0_0 y h⟩
    · exact ⟨_, List.mem_cons_of_mem _ (List.mem_cons_of_mem _ (List.mem_cons_of_mem _ (List.mem_cons_of_mem _ List.mem_cons_self))), mem_row 3 inb_S8x64x32_S1x64x32_3_0_0 y h⟩
    · exact ⟨_, List.mem_cons_of_mem _ (List.mem_cons_of_mem _ (List.mem_cons_of_mem _ (List.mem_cons_of_mem _ (List.mem_cons_of_mem _ List.mem_cons_self)))), mem_row 2 inb_S8x64x32_S1x64x32_2_0_0 y h⟩
    · exact ⟨_, List.mem_cons_of_mem _ (List.mem_cons_of_mem _ (List.mem_cons_of_mem _ (List.mem_cons_of_mem _ (List.mem_cons_of_mem _ (List.mem_cons_of_mem _ List.mem_cons_self))))), mem_row 1 inb_S8x64x32_S1x64x32_1_0_0 y h⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_row 0 inb_S8x64x32_S1x64x32_0_0_0 y h⟩

/-- The re-laid block at the index trip `k`'s load reads at `(0, p, q)` is the block at row `p`, step `32 k + q`:
    the load's rectangle has offsets `(k, 0, 0)` and unit strides. -/
theorem relaid_load {α : Type} (v : S64x256.Idx → α) (k : Fin k0_t1_loop.trips) (p : Fin 64) (q : Fin 32) :
    relaid v ((Rect.unit (s := S8x64x32) (k0_off2 k) S1x64x32.size (k0_off2_inb k)).toLoadRect.idx (ix3 (0 : Fin 1) p q))
      = v (ix2 p (stepOf k q)) := by
  unfold relaid
  refine congrArg v (funext fun a => ?_)
  match a with
  | ⟨0, _⟩ =>
    refine Fin.ext ?_
    show k0_off2 k 1 + 1 * p.val = p.val
    rw [k0_off2_eq]
    show 0 + 1 * p.val = p.val
    omega
  | ⟨1, _⟩ =>
    refine Fin.ext ?_
    show 32 * (k0_off2 k 0 + 1 * 0) + (k0_off2 k 2 + 1 * q.val) = 32 * k.val + q.val
    rw [k0_off2_eq]
    show 32 * (k.val + 1 * 0) + (0 + 1 * q.val) = 32 * k.val + q.val
    omega

/-- The actions' scratch, row `k`, holds the actions' block at steps `32 k + q`. -/
theorem read_scrA (arg8 : Memref sig .tc .vmem S8x64x32 .i32) (x1 : Vec F S64x256 .i32)
    (k : Fin k0_t1_loop.trips) (p : Fin 64) (q : Fin 32) :
    View.readAt (Elt F) arg8.view (Rect.unit (s := S8x64x32) (k0_off2 k) S1x64x32.size (k0_off2_inb k)).toLoadRect (scrA arg8 x1) (ix3 (0 : Fin 1) p q)
      = x1 (ix2 p (stepOf k q)) := by
  unfold scrA
  rw [View.readAt_writes_junk_eq_canon]
  exact (canon_rows x1 _ _ _ _ _ _ _ _ (Relay.pay2_apply x1) (Relay.pay23_apply x1) (Relay.pay21_apply x1)
    (Relay.pay19_apply x1) (Relay.pay17_apply x1) (Relay.pay14_apply x1) (Relay.pay12_apply x1) (Relay.pay10_apply x1) _).trans
    (relaid_load x1 k p q)

/-- The terminals' scratch, row `k`, holds the terminals' block at steps `32 k + q`. -/
theorem read_scrT (arg9 : Memref sig .tc .vmem S8x64x32 .f32) (x3 : Vec F S64x256 .f32)
    (k : Fin k0_t1_loop.trips) (p : Fin 64) (q : Fin 32) :
    View.readAt (Elt F) arg9.view (Rect.unit (s := S8x64x32) (k0_off2 k) S1x64x32.size (k0_off2_inb k)).toLoadRect (scrT arg9 x3) (ix3 (0 : Fin 1) p q)
      = x3 (ix2 p (stepOf k q)) := by
  unfold scrT
  rw [View.readAt_writes_junk_eq_canon]
  exact (canon_rows x3 _ _ _ _ _ _ _ _ (Relay.pay3_apply x3) (Relay.pay1_24_apply x3) (Relay.pay22_apply x3)
    (Relay.pay20_apply x3) (Relay.pay18_apply x3) (Relay.pay16_15_apply x3) (Relay.pay13_apply x3) (Relay.pay11_apply x3) _).trans
    (relaid_load x3 k p q)

end Cert.KernelIdeal.Hand

end
-- ==== Proof.Spec.lean ====
/-
  The mathematics both programs compute, stated once over REAL inputs.

  For a batch row `b` and a time step `s`, with logits `x b s k` (k < 200), an action `a b s < 200` and a
  terminal weight `t b s`:

    stepLogp b s = (x b s (a b s) - log (Σ_k exp (x b s k))) · (1 - t b s)

  is the masked log-probability of the action taken (a log-softmax read at the action's index), and the two
  row totals are

    totalLogp b = -(Σ_s stepLogp b s)          totalRew b = Σ_s r b s.

  Both programs finish with the same scalar function `tail` of these two vectors of 512 totals (a masked mean of
  their products, normalised by the mean absolute reward plus a small constant), so that function is named once and
  never opened.

  `RealInputs` says that four arrays over the extended reals (an integer array for the actions) are the
  coercions of real inputs with the actions in range; it is what finiteness of the float inputs and the range
  of the actions give.
-/
import Idealize.ShloMosaic.PureOps.Ideal
import Idealize.ShloMosaic.Lib.ValueIdx

noncomputable section

namespace Cert.Spec

open Idealize.ShloMosaic Idealize.ShloMosaic.ValueIdx
open scoped BigOperators

/-- The logits' shape, the three [512, 512] inputs' shape, a vector of row totals, and a scalar. -/
abbrev SX : Shape := ⟨3, ![512, 512, 200]⟩
abbrev SA : Shape := ⟨2, ![512, 512]⟩
abbrev S512 : Shape := ⟨1, ![512]⟩
abbrev S_ : Shape := ⟨0, ![]⟩

/-- The masked log-probability of the action taken at step `s` of row `b`. -/
def stepLogp (xr : Fin 512 → Fin 512 → Fin 200 → ℝ) (ai : Fin 512 → Fin 512 → Fin 200) (tr : Fin 512 → Fin 512 → ℝ)
    (b s : Fin 512) : ℝ :=
  (xr b s (ai b s) - Real.log (∑ k : Fin 200, Real.exp (xr b s k))) * (1 - tr b s)

/-- Row `b`'s total: minus the sum of its steps' masked log-probabilities. -/
def totalLogp (xr : Fin 512 → Fin 512 → Fin 200 → ℝ) (ai : Fin 512 → Fin 512 → Fin 200) (tr : Fin 512 → Fin 512 → ℝ)
    (b : Fin 512) : ℝ :=
  -(∑ s : Fin 512, stepLogp xr ai tr b s)

/-- Row `b`'s total reward. -/
def totalRew (rr : Fin 512 → Fin 512 → ℝ) (b : Fin 512) : ℝ := ∑ s : Fin 512, rr b s

/-- The four argument arrays are real inputs: every float entry is the coercion of a real, and every action is
    (the 32-bit word of) an index below 200. -/
structure RealInputs (x : Vec Ideal SX .f32) (a : Vec Ideal SA .i32) (r t : Vec Ideal SA .f32)
    (xr : Fin 512 → Fin 512 → Fin 200 → ℝ) (ai : Fin 512 → Fin 512 → Fin 200)
    (rr tr : Fin 512 → Fin 512 → ℝ) : Prop where
  hx : ∀ b s k, x (ix3 b s k) = ((xr b s k : ℝ) : EReal)
  ha : ∀ b s, a (ix2 b s) = BitVec.ofNat 32 (ai b s).val
  hr : ∀ b s, r (ix2 b s) = ((rr b s : ℝ) : EReal)
  ht : ∀ b s, t (ix2 b s) = ((tr b s : ℝ) : EReal)

theorem h_S_ : 0 < S_.numel := by decide
theorem bcast_S_S512 : S_.BroadcastsInDim S512 (![] : Fin 0 → Fin S512.rank) := by decide
theorem reducesTo_S512_S_d0 : S512.ReducesTo [0] S_ := by decide

/-- What both programs do with the two vectors of row totals `L` (log-probabilities) and `R` (rewards): the mean of
    `L · R` over the rows whose `L` is below the cutoff, divided by the mean of `|R|` plus a small constant. Written
    with the host operations themselves, so that each program's last stretch of operations IS this function of its
    two totals; it is never unfolded. -/
def tail (L R : FVec Ideal S512 .f32) : FVec Ideal S_ .f32 :=
  let prod : FVec Ideal S512 .f32 := mulf L R
  let cut : FVec Ideal S512 .f32 := broadcastInDim S512 ![] bcast_S_S512 (constant (F := Ideal) S_ .f32 0x47C35000#32)
  let mask : IVec S512 1 := cmpf (F := Ideal) .olt L cut
  let cnt : FVec Ideal S_ .f32 :=
    Host.reduceAdd (F := Ideal) (uitofp (F := Ideal) .f32 mask) (constant (F := Ideal) S_ .f32 0x00000000#32) reducesTo_S512_S_d0 h_S_
  let zeros : FVec Ideal S512 .f32 := broadcastInDim S512 ![] bcast_S_S512 (constant (F := Ideal) S_ .f32 0x00000000#32)
  let num : FVec Ideal S_ .f32 :=
    Host.reduceAdd (F := Ideal) (select mask prod zeros) (constant (F := Ideal) S_ .f32 0x00000000#32) reducesTo_S512_S_d0 h_S_
  let meanAbs : FVec Ideal S_ .f32 :=
    Host.divf (F := Ideal)
      (Host.reduceAdd (F := Ideal) (Host.absf (F := Ideal) R) (constant (F := Ideal) S_ .f32 0x00000000#32) reducesTo_S512_S_d0 h_S_)
      (constant (F := Ideal) S_ .f32 0x44000000#32)
  Host.divf (F := Ideal) (Host.divf (F := Ideal) num cnt) (addf meanAbs (constant (F := Ideal) S_ .f32 0x322BCC77#32))

end Cert.Spec

end
-- ==== Proof.KernelIdeal.Pay.lean ====
/-
  The kernel body's arithmetic, read at an index, at the extended reals.

  One trip of the body's counted loop takes a chunk of 32 steps of the 64 rows of a block — logits `v86`, actions
  `v88`, terminal weights `v91` — and adds to each row's running total minus the sum over the chunk's steps of

    (Σ_k x_k · [k = a] - log Σ_k exp x_k) · (1 - t),

  which for real logits and an action below 200 is the masked log-probability of the action (the one-hot product
  picks the action's logit). The other payloads are the re-laying of the actions' and terminals' blocks into chunks
  (slices and reshapes, read at an index), the rewards' row sums, and the accumulation into the output blocks.

  The file goes from the small to the large: the index a one-axis sum inserts, written by coordinates, and the three
  sums as `Fin`-indexed sums; the reshapes and the broadcast read at an index (row-major arithmetic); the words (the
  one-hot's entry is `1` exactly at the action's class, since two class indices below 200 have equal 32-bit words only
  if equal) and the constant one; the pieces of one step's term (one-hot, log-sum-exp, selected logit, weight), each a
  coercion of a real; and the payloads themselves.
-/
import proofs.«421785_j36747740185105_3_alg».proof.Proof.Gen.KernelIdeal.Skeleton
import proofs.«421785_j36747740185105_3_alg».proof.Proof.Gen.KernelIdeal
import proofs.«421785_j36747740185105_3_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Data.EReal.Operations
import Mathlib.Analysis.SpecialFunctions.Log.Basic
import Mathlib.Algebra.BigOperators.Group.Finset.Piecewise
import Mathlib.Algebra.Order.BigOperators.Group.Finset

noncomputable section

namespace Cert.KernelIdeal.Pay

open Cert.KernelIdeal Cert.KernelIdeal.Gen
open Idealize.ShloMosaic Idealize.ShloMosaic.ValueIdx
open scoped BigOperators

/-! ## The one-axis sums

A sum over one axis reads, at a reduced index, the source at that index with the summed coordinate inserted; at these
literal shapes the inserted index is the tuple of coordinates. The sums' format and accumulator facts are taken at the
types the payloads carry them (the format's disjunction, the zero word equal to itself). -/

theorem lift_lane (h : S64x32x200.Reduces [2] S64x32) (p : Fin 64) (q : Fin 32) (k : Fin 200) :
    h.lift (ix2 p q) k = ix3 p q k := by
  funext c
  match c with
  | ⟨0, _⟩ => rfl
  | ⟨1, _⟩ => rfl
  | ⟨2, _⟩ => rfl

theorem lift_step (h : S64x32.Reduces [1] S64) (p : Fin 64) (q : Fin 32) :
    h.lift (ix1 p) q = ix2 p q := by
  funext c
  match c with
  | ⟨0, _⟩ => rfl
  | ⟨1, _⟩ => rfl

theorem lift_row (h : S64x256.Reduces [1] S64) (p : Fin 64) (q : Fin 256) :
    h.lift (ix1 p) q = ix2 p q := by
  funext c
  match c with
  | ⟨0, _⟩ => rfl
  | ⟨1, _⟩ => rfl

/-- The sum over the 200 classes, at step `(p, q)`. -/
theorem sum_lane (src : FVec Ideal S64x32x200 .f32) (h : S64x32x200.Reduces [2] S64x32) (hφ : FTy.f32 = FTy.f32 ∨ FTy.f32 = FTy.bf16)
    (hacc : (0x00000000#32 : BitVec 32) = 0x00000000#32) (p : Fin 64) (q : Fin 32) :
    multiReduction .add [2] S64x32 src 0x00000000#32 h hφ hacc (ix2 p q) = ∑ k : Fin 200, src (ix3 p q k) := by
  refine (Ideal.multiReduction_add_single src _ h hφ hacc _).trans ?_
  exact Finset.sum_congr rfl fun k _ => congrArg src (lift_lane h p q k)

/-- The sum over a chunk's 32 steps, at row `p`. -/
theorem sum_step (src : FVec Ideal S64x32 .f32) (h : S64x32.Reduces [1] S64) (hφ : FTy.f32 = FTy.f32 ∨ FTy.f32 = FTy.bf16)
    (hacc : (0x00000000#32 : BitVec 32) = 0x00000000#32) (p : Fin 64) :
    multiReduction .add [1] S64 src 0x00000000#32 h hφ hacc (ix1 p) = ∑ q : Fin 32, src (ix2 p q) := by
  refine (Ideal.multiReduction_add_single src _ h hφ hacc _).trans ?_
  exact Finset.sum_congr rfl fun q _ => congrArg src (lift_step h p q)

/-- The sum over a block's 256 steps, at row `p`. -/
theorem sum_row (src : FVec Ideal S64x256 .f32) (h : S64x256.Reduces [1] S64) (hφ : FTy.f32 = FTy.f32 ∨ FTy.f32 = FTy.bf16)
    (hacc : (0x00000000#32 : BitVec 32) = 0x00000000#32) (p : Fin 64) :
    multiReduction .add [1] S64 src 0x00000000#32 h hφ hacc (ix1 p) = ∑ q : Fin 256, src (ix2 p q) := by
  refine (Ideal.multiReduction_add_single src _ h hφ hacc _).trans ?_
  exact Finset.sum_congr rfl fun q _ => congrArg src (lift_row h p q)

/-! ## The reshapes and the broadcast, read at an index -/

section Layout
variable {α : Type}

theorem cast_ab_ab1 (x : S64x32.Idx → α) (h : S64x32.ShapeCasts S64x32x1) (p : Fin 64) (q : Fin 32) (u : Fin 1) :
    shapeCast S64x32x1 x h (ix3 p q u) = x (ix2 p q) :=
  shapeCast_apply x h _ _ (by
    have hu : u.val = 0 := by omega
    rw [Shape.rowMajor_val_three, Shape.rowMajor_val_two]
    show p.val * 32 + q.val = (p.val * 32 + q.val) * 1 + u.val
    omega)

theorem cast_ab1_ab (x : S64x32x1.Idx → α) (h : S64x32x1.ShapeCasts S64x32) (p : Fin 64) (q : Fin 32) :
    shapeCast S64x32 x h (ix2 p q) = x (ix3 p q (0 : Fin 1)) :=
  shapeCast_apply x h _ _ (by
    rw [Shape.rowMajor_val_three, Shape.rowMajor_val_two]
    show (p.val * 32 + q.val) * 1 + 0 = p.val * 32 + q.val
    omega)

theorem cast_a_a1 (x : S64.Idx → α) (h : S64.ShapeCasts S64x1) (p : Fin 64) (u : Fin 1) :
    shapeCast S64x1 x h (ix2 p u) = x (ix1 p) :=
  shapeCast_apply x h _ _ (by
    have hu : u.val = 0 := by omega
    rw [Shape.rowMajor_val_two, Shape.rowMajor_val_one]
    show p.val = p.val * 1 + u.val
    omega)

theorem bcast_ab1_abc (x : S64x32x1.Idx → α) (h : S64x32x1.Broadcasts S64x32x200) (p : Fin 64) (q : Fin 32) (k : Fin 200) :
    broadcastTo S64x32x200 x h (ix3 p q k) = x (ix3 p q (0 : Fin 1)) := by
  refine broadcastTo_apply x h (ix3 p q k) (ix3 p q (0 : Fin 1)) fun ax => ?_
  match ax with
  | ⟨0, _⟩ => rfl
  | ⟨1, _⟩ => rfl
  | ⟨2, _⟩ => rfl

end Layout

/-! ## Words and constants -/

/-- The one-hot's entry: comparing the words of two class indices, widening the bit and reading it as a float
    gives `1` where the indices agree and `0` elsewhere. -/
theorem onehot_word (k a : Fin 200) :
    (FloatOps.sitofp (F := Ideal) .f32 ((IntOp.cmpi .eq (BitVec.ofNat 32 k.val) (BitVec.ofNat 32 a.val)).setWidth 32) : EReal)
      = if k = a then 1 else 0 := by
  show ((((IntOp.cmpi .eq (BitVec.ofNat 32 k.val) (BitVec.ofNat 32 a.val)).setWidth 32).toInt : ℝ) : EReal) = _
  by_cases hka : k = a
  · subst hka
    rw [if_pos rfl]
    simp [IntOp.cmpi]
  · rw [if_neg hka]
    have hne : BitVec.ofNat 32 k.val ≠ BitVec.ofNat 32 a.val := by
      intro he
      have h2 := congrArg BitVec.toNat he
      rw [BitVec.toNat_ofNat, BitVec.toNat_ofNat] at h2
      have hk := k.isLt
      have ha := a.isLt
      exact hka (Fin.ext (by omega))
    have hb : (BitVec.ofNat 32 k.val == BitVec.ofNat 32 a.val) = false := beq_eq_false_iff_ne.mpr hne
    simp [IntOp.cmpi, hb]

/-- The word `0x3F800000` is the float one. -/
theorem ofBits_one_f32 : Ideal.ofBits .f32 0x3F800000#32 = ((1 : ℝ) : EReal) := by
  simp [Ideal.ofBits, Ideal.ieee, -EReal.coe_mul]; norm_num

/-- A finite sum of reals, coerced. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The pointwise operations at an index -/

section Pointwise
variable {s : Shape}

theorem exp_apply (a : FVec Ideal s .f32) (i : s.Idx) : exp a i = Ideal.exp (a i) := rfl
theorem log_apply (a : FVec Ideal s .f32) (i : s.Idx) : log a i = Ideal.log (a i) := rfl
theorem cmpi_apply {w : Nat} (pr : CmpIPredicate) (a b : IVec s w) (i : s.Idx) : cmpi pr a b i = IntOp.cmpi pr (a i) (b i) := rfl

end Pointwise

/-! ## The pieces of one step's term -/

/-- The one-hot of the action at `(p, q, k)`. -/
theorem onehot_apply (v88 : Vec Ideal S1x64x32 .i32) (ai : Fin 64 → Fin 32 → Fin 200)
    (ha : ∀ p q, v88 (ix3 (0 : Fin 1) p q) = BitVec.ofNat 32 (ai p q).val)
    (h1 : S64x32x200.Iotas .tc 32 [2]) (h2 : S1x64x32.ShapeCasts S64x32) (h3 : S64x32.ShapeCasts S64x32x1)
    (h4 : S64x32x1.Broadcasts S64x32x200) (h5 : 1 < 32) (p : Fin 64) (q : Fin 32) (k : Fin 200) :
    (sitofp .f32 (extui 32 (cmpi .eq (iota .tc S64x32x200 32 [2] h1)
        (broadcastTo S64x32x200 (shapeCast S64x32x1 (shapeCast S64x32 v88 h2 : IVec S64x32 32) h3) h4)) h5) : FVec Ideal S64x32x200 .f32)
        (ix3 p q k)
      = if k = ai p q then 1 else 0 := by
  rw [sitofp_apply, extui_apply, cmpi_apply, iota_single_apply, bcast_ab1_abc, cast_ab_ab1, shapeCast_1ab_ab_apply, ha]
  exact onehot_word k (ai p q)

/-- The log of the sum of exponentials at step `(p, q)`, for real logits. -/
theorem lse_apply (src : FVec Ideal S64x32x200 .f32) (h : S64x32x200.Reduces [2] S64x32)
    (hφ : FTy.f32 = FTy.f32 ∨ FTy.f32 = FTy.bf16) (hacc : (0x00000000#32 : BitVec 32) = 0x00000000#32)
    (hc : S64x32.ShapeCasts S64x32x1) (p : Fin 64) (q : Fin 32) (u : Fin 1) (x : Fin 200 → ℝ)
    (hx : ∀ k, src (ix3 p q k) = ((x k : ℝ) : EReal)) :
    log (shapeCast S64x32x1 (multiReduction .add [2] S64x32 (exp src) 0x00000000#32 h hφ hacc) hc) (ix3 p q u)
      = ((Real.log (∑ k : Fin 200, Real.exp (x k)) : ℝ) : EReal) := by
  rw [log_apply, cast_ab_ab1, sum_lane]
  have hs : ∑ k : Fin 200, exp src (ix3 p q k) = ((∑ k : Fin 200, Real.exp (x k) : ℝ) : EReal) := by
    rw [coe_sum]
    exact Finset.sum_congr rfl fun k _ => by rw [exp_apply, hx, Ideal.exp_coe]
  have hpos : 0 < ∑ k : Fin 200, Real.exp (x k) :=
    Finset.sum_pos (fun k _ => Real.exp_pos _) ⟨(0 : Fin 200), Finset.mem_univ _⟩
  rw [hs, Ideal.log_coe, if_neg (not_le.mpr hpos)]

/-- The logits times a one-hot, summed over the classes: the logit the one-hot marks. -/
theorem sel_apply (src oh : FVec Ideal S64x32x200 .f32) (h : S64x32x200.Reduces [2] S64x32)
    (hφ : FTy.f32 = FTy.f32 ∨ FTy.f32 = FTy.bf16) (hacc : (0x00000000#32 : BitVec 32) = 0x00000000#32)
    (hc : S64x32.ShapeCasts S64x32x1) (p : Fin 64) (q : Fin 32) (u : Fin 1) (x : Fin 200 → ℝ) (a : Fin 200)
    (hx : ∀ k, src (ix3 p q k) = ((x k : ℝ) : EReal)) (hoh : ∀ k, oh (ix3 p q k) = if k = a then 1 else 0) :
    shapeCast S64x32x1 (multiReduction .add [2] S64x32 (mulf src oh) 0x00000000#32 h hφ hacc) hc (ix3 p q u)
      = ((x a : ℝ) : EReal) := by
  rw [cast_ab_ab1, sum_lane]
  have hterm : ∀ k : Fin 200, mulf src oh (ix3 p q k) = if k = a then ((x k : ℝ) : EReal) else 0 := by
    intro k
    rw [mulf_apply, hx, hoh]
    by_cases hka : k = a
    · rw [if_pos hka, if_pos hka, mul_one]
    · rw [if_neg hka, if_neg hka, mul_zero]
  rw [Finset.sum_congr rfl fun k _ => hterm k, Finset.sum_ite_eq' Finset.univ a, if_pos (Finset.mem_univ a)]

/-- One minus the terminal weight at step `(p, q)`. -/
theorem weight_apply (v91 : Vec Ideal S1x64x32 .f32) (tr : Fin 64 → Fin 32 → ℝ)
    (ht : ∀ p q, v91 (ix3 (0 : Fin 1) p q) = ((tr p q : ℝ) : EReal))
    (h2 : S1x64x32.ShapeCasts S64x32) (h3 : S64x32.ShapeCasts S64x32x1) (p : Fin 64) (q : Fin 32) (u : Fin 1) :
    shapeCast S64x32x1 (subf (broadcast S64x32 (Scalar.ofBits (F := Ideal) .f32 0x3F800000#32))
        (shapeCast S64x32 v91 h2 : FVec Ideal S64x32 .f32)) h3 (ix3 p q u)
      = ((1 - tr p q : ℝ) : EReal) := by
  rw [cast_ab_ab1, subf_apply, broadcast_apply, shapeCast_1ab_ab_apply, ht]
  show Ideal.ofBits .f32 0x3F800000#32 - _ = _
  rw [ofBits_one_f32, ← EReal.coe_sub]

/-- One trip of the loop, at row `p` of the block: the carried total plus minus the chunk's sum of masked
    log-probabilities, for real logits, in-range actions and real terminal weights. -/
theorem pay5_apply (acc : FVec Ideal S64x1 .f32) (v86 : Vec Ideal S64x32x200 .f32) (v88 : Vec Ideal S1x64x32 .i32) (v91 : Vec Ideal S1x64x32 .f32)
    (xr : Fin 64 → Fin 32 → Fin 200 → ℝ) (ai : Fin 64 → Fin 32 → Fin 200) (tr : Fin 64 → Fin 32 → ℝ)
    (hx : ∀ p q k, v86 (ix3 p q k) = ((xr p q k : ℝ) : EReal))
    (ha : ∀ p q, v88 (ix3 (0 : Fin 1) p q) = BitVec.ofNat 32 (ai p q).val)
    (ht : ∀ p q, v91 (ix3 (0 : Fin 1) p q) = ((tr p q : ℝ) : EReal)) (p : Fin 64) :
    k0_pay5 (F := Ideal) acc v86 v88 v91 (ix2 p (0 : Fin 1))
      = acc (ix2 p (0 : Fin 1))
        + ((-(∑ q : Fin 32, (xr p q (ai p q) - Real.log (∑ k : Fin 200, Real.exp (xr p q k))) * (1 - tr p q)) : ℝ) : EReal) := by
  unfold k0_pay5
  rw [addf_apply, subf_apply, broadcast_apply, cast_a_a1, sum_step]
  refine congrArg (acc (ix2 p (0 : Fin 1)) + ·) ?_
  show Ideal.ofBits .f32 0x00000000#32 - _ = _
  rw [Ideal.ofBits_zero_f32, zero_sub, EReal.coe_neg, coe_sum]
  refine congrArg Neg.neg (Finset.sum_congr rfl fun q _ => ?_)
  rw [cast_ab1_ab, mulf_apply, subf_apply,
    sel_apply (x := xr p q) (a := ai p q) (hx := hx p q) (hoh := fun k => onehot_apply v88 ai ha _ _ _ _ _ p q k),
    lse_apply (x := xr p q) (hx := hx p q), weight_apply v91 tr ht, ← EReal.coe_sub, ← EReal.coe_mul]

/-- The rewards' block summed along its 256 steps and added to the running total. -/
theorem pay7_apply (v72 : Vec Ideal S64x256 .f32) (v79 : Vec Ideal S64x1 .f32) (rr : Fin 64 → Fin 256 → ℝ)
    (hr : ∀ p q, v72 (ix2 p q) = ((rr p q : ℝ) : EReal)) (p : Fin 64) :
    k0_pay7 (F := Ideal) v72 v79 (ix2 p (0 : Fin 1)) = v79 (ix2 p (0 : Fin 1)) + ((∑ q : Fin 256, rr p q : ℝ) : EReal) := by
  unfold k0_pay7
  rw [addf_apply, shapeCast_self, cast_a_a1, sum_row, coe_sum]
  exact congrArg (v79 (ix2 p (0 : Fin 1)) + ·) (Finset.sum_congr rfl fun q _ => hr p q)

/-- The loop's result added to the running total. -/
theorem pay6_apply (v71 : FVec Ideal S64x1 .f32) (v75 : Vec Ideal S64x1 .f32) (p : Fin 64) :
    k0_pay6 (F := Ideal) v71 v75 (ix2 p (0 : Fin 1)) = v75 (ix2 p (0 : Fin 1)) + v71 (ix2 p (0 : Fin 1)) := by
  unfold k0_pay6
  rw [addf_apply, shapeCast_self]

/-- The three zero fills. -/
theorem pay4_apply (p : Fin 64) : k0_pay4 (F := Ideal) (ix2 p (0 : Fin 1)) = 0 := by
  show Ideal.ofBits .f32 0x00000000#32 = 0
  exact Ideal.ofBits_zero_f32
theorem pay8_apply (p : Fin 64) : k0_pay8 (F := Ideal) (ix2 p (0 : Fin 1)) = 0 := by
  show Ideal.ofBits .f32 0x00000000#32 = 0
  exact Ideal.ofBits_zero_f32
theorem pay9_apply (p : Fin 64) : k0_pay9 (F := Ideal) (ix2 p (0 : Fin 1)) = 0 := by
  show Ideal.ofBits .f32 0x00000000#32 = 0
  exact Ideal.ofBits_zero_f32

end Cert.KernelIdeal.Pay

end
-- ==== Proof.KernelIdeal.Loop.lean ====
/-
  The loop's value at the extended reals.

  For a block of real logits, in-range actions and real terminal weights, the totals the loop carries after its eight
  trips are, row by row, minus the sum over the block's 256 steps of the masked log-probability of the action taken:
  trip `k` adds minus the sum over steps `32 k … 32 k + 31` (the trip payload read at a row, with the three loads read
  at an index), and the eight chunks of 32 steps are the 256 steps.
-/
import proofs.«421785_j36747740185105_3_alg».proof.Proof.KernelIdeal.Reads
import proofs.«421785_j36747740185105_3_alg».proof.Proof.KernelIdeal.Pay
import Mathlib.Algebra.BigOperators.Group.Finset.Basic
import Mathlib.Data.Fintype.BigOperators
import Mathlib.Data.EReal.Operations

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The loop runs eight trips. -/
theorem loop_trips_eq : k0_t1_loop.trips = 8 := by decide

/-- The masked log-probability of the action taken at step `n` of row `p` of a block; zero past the block's 256
    steps. -/
def loopStepTerm (xb : Fin 64 → Fin 256 → Fin 200 → ℝ) (ab : Fin 64 → Fin 256 → Fin 200) (tb : Fin 64 → Fin 256 → ℝ)
    (p : Fin 64) (n : ℕ) : ℝ :=
  if h : n < 256 then
    (xb p ⟨n, h⟩ (ab p ⟨n, h⟩) - Real.log (∑ k : Fin 200, Real.exp (xb p ⟨n, h⟩ k))) * (1 - tb p ⟨n, h⟩)
  else 0

/-- The chunk trip `k` works on, summed: the steps `32 k … 32 k + 31` of the block. -/
theorem loop_chunk_sum (xb : Fin 64 → Fin 256 → Fin 200 → ℝ) (ab : Fin 64 → Fin 256 → Fin 200) (tb : Fin 64 → Fin 256 → ℝ)
    (p : Fin 64) (k : Fin k0_t1_loop.trips) :
    ∑ q : Fin 32, (xb p (stepOf k q) (ab p (stepOf k q)) - Real.log (∑ kk : Fin 200, Real.exp (xb p (stepOf k q) kk)))
        * (1 - tb p (stepOf k q))
      = ∑ x ∈ Finset.range 32, loopStepTerm xb ab tb p (32 * k.val + x) := by
  rw [← Fin.sum_univ_eq_sum_range (fun x => loopStepTerm xb ab tb p (32 * k.val + x)) 32]
  exact Finset.sum_congr rfl fun q _ => by unfold loopStepTerm; rw [dif_pos (stepOf k q).isLt]

/-- The carried totals before trip `n`, at row `p`: minus the sum over the first `32 n` steps. -/
theorem loop_st_apply (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (x0 : Vec Ideal S64x256x200 .f32) (x1 : Vec Ideal S64x256 .i32) (x3 : Vec Ideal S64x256 .f32)
    (xb : Fin 64 → Fin 256 → Fin 200 → ℝ) (ab : Fin 64 → Fin 256 → Fin 200) (tb : Fin 64 → Fin 256 → ℝ)
    (hx : ∀ p s k, x0 (ix3 p s k) = ((xb p s k : ℝ) : EReal))
    (ha : ∀ p s, x1 (ix2 p s) = BitVec.ofNat 32 (ab p s).val)
    (ht : ∀ p s, x3 (ix2 p s) = ((tb p s : ℝ) : EReal)) (p : Fin 64) (n : ℕ) (hn : n ≤ k0_t1_loop.trips) :
    st_k0_t1 (F := Ideal) Variants.none c none i arg2 harg2 arg3 harg3 arg4 harg4 arg5 harg5 arg6 harg6 arg7 harg7 arg8 harg8 arg9 harg9 (harg2.unread x0) (scrA arg8 x1) (scrT arg9 x3) (k0_pay4 (F := Ideal)) n (ix2 p (0 : Fin 1))
      = ((-(∑ m ∈ Finset.range (32 * n), loopStepTerm xb ab tb p m) : ℝ) : EReal) := by
  induction n with
  | zero =>
    rw [Nat.mul_zero, Finset.range_zero, Finset.sum_empty, neg_zero, EReal.coe_zero]
    exact Pay.pay4_apply p
  | succ m ih =>
    have hm : m < k0_t1_loop.trips := hn
    refine (congrFun (st_k0_t1_succ (F := Ideal) Variants.none c none i arg2 harg2 arg3 harg3 arg4 harg4 arg5 harg5 arg6 harg6 arg7 harg7 arg8 harg8 arg9 harg9 (harg2.unread x0) (scrA arg8 x1) (scrT arg9 x3) (k0_pay4 (F := Ideal)) ⟨m, hm⟩) _).trans ?_
    rw [tripR_eq]
    refine (Pay.pay5_apply _ _ _ _ (fun p q kk => xb p (stepOf ⟨m, hm⟩ q) kk) (fun p q => ab p (stepOf ⟨m, hm⟩ q))
      (fun p q => tb p (stepOf ⟨m, hm⟩ q))
      (fun p q kk => (read_logits arg2 harg2 x0 ⟨m, hm⟩ p q kk).trans (hx p (stepOf ⟨m, hm⟩ q) kk))
      (fun p q => (read_scrA arg8 x1 ⟨m, hm⟩ p q).trans (ha p (stepOf ⟨m, hm⟩ q)))
      (fun p q => (read_scrT arg9 x3 ⟨m, hm⟩ p q).trans (ht p (stepOf ⟨m, hm⟩ q))) p).trans ?_
    rw [loop_chunk_sum xb ab tb p ⟨m, hm⟩]
    refine (congrArg (· + _) (ih (Nat.le_of_lt hm))).trans ?_
    rw [← EReal.coe_add, Nat.mul_succ, Finset.sum_range_add, neg_add]

/-- The loop's carried totals after its eight trips, at row `p` of the block. -/
theorem loopv_apply (c : Dev nD) (i : grid0.Coords) (arg2 : Memref sig .tc .vmem S64x256x200 .f32) (harg2 : arg2.IsWhole) (arg3 : Memref sig .tc .vmem S64x256 .i32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S8x64x32 .i32) (harg8 : arg8.IsWhole) (arg9 : Memref sig .tc .vmem S8x64x32 .f32) (harg9 : arg9.IsWhole) (x0 : Vec Ideal S64x256x200 .f32) (x1 : Vec Ideal S64x256 .i32) (x3 : Vec Ideal S64x256 .f32)
    (xb : Fin 64 → Fin 256 → Fin 200 → ℝ) (ab : Fin 64 → Fin 256 → Fin 200) (tb : Fin 64 → Fin 256 → ℝ)
    (hx : ∀ p s k, x0 (ix3 p s k) = ((xb p s k : ℝ) : EReal))
    (ha : ∀ p s, x1 (ix2 p s) = BitVec.ofNat 32 (ab p s).val)
    (ht : ∀ p s, x3 (ix2 p s) = ((tb p s : ℝ) : EReal)) (p : Fin 64) :
    loopv (F := Ideal) c i arg2 harg2 arg3 harg3 arg4 harg4 arg5 harg5 arg6 harg6 arg7 harg7 arg8 harg8 arg9 harg9 x0 x1 x3 (ix2 p (0 : Fin 1))
      = ((-(∑ s : Fin 256, (xb p s (ab p s) - Real.log (∑ k : Fin 200, Real.exp (xb p s k))) * (1 - tb p s)) : ℝ) : EReal) := by
  unfold loopv
  have h8 : Scf.trips (0#32) (Scalar.addi 0#32 8#32) 1#32 = 8 := by decide
  rw [h8]
  refine (loop_st_apply c i arg2 harg2 arg3 harg3 arg4 harg4 arg5 harg5 arg6 harg6 arg7 harg7 arg8 harg8 arg9 harg9 x0 x1 x3 xb ab tb hx ha ht p 8 (le_of_eq loop_trips_eq.symm)).trans ?_
  refine congrArg (fun r : ℝ => ((-r : ℝ) : EReal)) ?_
  refine (Fin.sum_univ_eq_sum_range (loopStepTerm xb ab tb p) 256).symm.trans ?_
  exact Finset.sum_congr rfl fun s _ => by unfold loopStepTerm; rw [dif_pos s.isLt]

end Cert.KernelIdeal.Hand

end
-- ==== Proof.KernelIdeal.Arrays.lean ====
/-
  What the two output arrays hold after the region, at the extended reals.

  For real inputs with the actions in range: after an even point `t` the first output block holds, row by row,
  minus the sum of the masked log-probabilities over the point's 256 steps (zero plus the loop's totals), and the
  second the sum of the point's 256 rewards; after the odd point that follows they hold those plus the same sums over
  the next 256 steps — the row's whole totals, since the two points share their rows and their steps are
  `0 … 255` and `256 … 511`. An output block is written back exactly after the odd points, and the eight odd points'
  blocks are the eight blocks of 64 rows: so the two [512, 1] arrays end holding the specification's row totals.
-/
import proofs.«421785_j36747740185105_3_alg».proof.Proof.KernelIdeal.Blocks
import proofs.«421785_j36747740185105_3_alg».proof.Proof.KernelIdeal.Loop
import proofs.«421785_j36747740185105_3_alg».proof.Proof.KernelIdeal.Pay
import proofs.«421785_j36747740185105_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators
open Cert.Spec (stepLogp totalLogp totalRew RealInputs)

variable (m : (ℓ : Loc nD τ sig) → Buf (Elt Ideal) ℓ) (c : Dev nD)
  (xr : Fin 512 → Fin 512 → Fin 200 → ℝ) (ai : Fin 512 → Fin 512 → Fin 200) (rr tr : Fin 512 → Fin 512 → ℝ)

/-- A sum over 512 steps is the sum over the first 256 plus the sum over the last 256. -/
theorem sum_halves (g : Fin 512 → ℝ) :
    ∑ s : Fin 512, g s
      = (∑ s : Fin 256, g ⟨s.val, by have := s.isLt; omega⟩) + ∑ s : Fin 256, g ⟨256 + s.val, by have := s.isLt; omega⟩ := by
  have e := Fin.sum_univ_add (fun i : Fin (256 + 256) => g ⟨i.val, i.isLt⟩)
  exact e

/-- The loop's totals at point `t`, row `p`: minus the sum over the point's 256 steps. -/
theorem loop_at (h : RealInputs (V m c main_arg0) (V m c main_arg1) (V m c main_arg2) (V m c main_arg3) xr ai rr tr) (t : Fin cfg0.N) (p : Fin 64) :
    loopv (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 3 t) (ix2 p (0 : Fin 1))
      = ((-(∑ s : Fin 256, stepLogp xr ai tr (rowAt t p) (stepAt t s)) : ℝ) : EReal) := by
  rw [loopv_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 3 t)
    (fun p s k => xr (rowAt t p) (stepAt t s) k) (fun p s => ai (rowAt t p) (stepAt t s)) (fun p s => tr (rowAt t p) (stepAt t s))
    (fun p s k => (blk0_apply m c t p s k).trans (h.hx _ _ _)) (fun p s => (blk1_apply m c t p s).trans (h.ha _ _))
    (fun p s => (blk3_apply m c t p s).trans (h.ht _ _)) p]
  rfl

/-- After an even point: the point's own sums. -/
theorem outs_even (h : RealInputs (V m c main_arg0) (V m c main_arg1) (V m c main_arg2) (V m c main_arg3) xr ai rr tr) (t : Fin cfg0.N) (h0 : t.val % 2 = 0) (p : Fin 64) :
    (outsAt0 m c t.val t.isLt).1 (ix2 p (0 : Fin 1)) = ((-(∑ s : Fin 256, stepLogp xr ai tr (rowAt t p) (stepAt t s)) : ℝ) : EReal)
    ∧ (outsAt0 m c t.val t.isLt).2 (ix2 p (0 : Fin 1)) = ((∑ s : Fin 256, rr (rowAt t p) (stepAt t s) : ℝ) : EReal) := by
  rw [outsAt0_A m c t h0]
  dsimp only
  rw [out0_A_4_eq, out0_A_5_eq, Pay.pay6_apply, Pay.pay8_apply, loop_at m c xr ai rr tr h t p,
    Pay.pay7_apply _ _ (fun p s => rr (rowAt t p) (stepAt t s)) (fun p s => (blk2_apply m c t p s).trans (h.hr _ _)) p,
    Pay.pay9_apply, zero_add, zero_add]
  exact ⟨rfl, rfl⟩

/-- After an odd point: the row's whole totals. -/
theorem outs_odd (h : RealInputs (V m c main_arg0) (V m c main_arg1) (V m c main_arg2) (V m c main_arg3) xr ai rr tr) (t : Fin cfg0.N) (h0 : ¬t.val % 2 = 0) (p : Fin 64) :
    (outsAt0 m c t.val t.isLt).1 (ix2 p (0 : Fin 1)) = ((totalLogp xr ai tr (rowAt t p) : ℝ) : EReal)
    ∧ (outsAt0 m c t.val t.isLt).2 (ix2 p (0 : Fin 1)) = ((totalRew rr (rowAt t p) : ℝ) : EReal) := by
  have hN := lt16 t
  let t' : Fin cfg0.N := ⟨t.val - 1, Nat.lt_of_le_of_lt (Nat.sub_le _ _) t.isLt⟩
  have ht' : t'.val % 2 = 0 := by show (t.val - 1) % 2 = 0; omega
  obtain ⟨e4, e5⟩ := outs_even m c xr ai rr tr h t' ht' p
  have hrow : rowAt t' p = rowAt t p := Fin.ext (by show 64 * ((t.val - 1) / 2) + p.val = 64 * (t.val / 2) + p.val; omega)
  have hs0 : ∀ s : Fin 256, stepAt t' s = ⟨s.val, by have := s.isLt; omega⟩ :=
    fun s => Fin.ext (by show 256 * ((t.val - 1) % 2) + s.val = s.val; omega)
  have hs1 : ∀ s : Fin 256, stepAt t s = ⟨256 + s.val, by have := s.isLt; omega⟩ :=
    fun s => Fin.ext (by show 256 * (t.val % 2) + s.val = 256 + s.val; omega)
  rw [outsAt0_B m c t h0]
  dsimp only
  rw [out0_B_4_eq, out0_B_5_eq, Pay.pay6_apply, loop_at m c xr ai rr tr h t p,
    Pay.pay7_apply _ _ (fun p s => rr (rowAt t p) (stepAt t s)) (fun p s => (blk2_apply m c t p s).trans (h.hr _ _)) p]
  change (outsAt0 m c t'.val t'.isLt).1 (ix2 p 0) + _ = _ ∧ (outsAt0 m c t'.val t'.isLt).2 (ix2 p 0) + _ = _
  rw [e4, e5, ← EReal.coe_add, ← EReal.coe_add, hrow]
  simp only [hs0, hs1]
  refine ⟨congrArg _ ?_, congrArg _ ?_⟩
  · unfold totalLogp
    rw [sum_halves (fun s => stepLogp xr ai tr (rowAt t p) s)]
    ring
  · unfold totalRew
    rw [sum_halves (fun s => rr (rowAt t p) s)]

/-! ## The write-backs and the arrays' final contents -/

/-- The output windows' blocks are whole (uncut) blocks of 64 rows at every point. -/
theorem xsize_facts : ∀ t : Fin cfg0.N,
    (win0_4.xsize (grid0.coords t) 0 = 64 ∧ win0_4.xsize (grid0.coords t) 1 = 1)
    ∧ (win0_5.xsize (grid0.coords t) 0 = 64 ∧ win0_5.xsize (grid0.coords t) 1 = 1) :=
  (by decide +kernel : ∀ t : Fin grid0.N,
    (win0_4.xsize (grid0.coords t) 0 = 64 ∧ win0_4.xsize (grid0.coords t) 1 = 1)
    ∧ (win0_5.xsize (grid0.coords t) 0 = 64 ∧ win0_5.xsize (grid0.coords t) 1 = 1))

/-- The specification's row totals of log-probabilities, as the first output array. -/
def G4 : Buf (Elt Ideal) ((c : Thread nD τ).loc main_v0_0) :=
  ((fun idx : S512x1.Idx => ((totalLogp xr ai tr ⟨(idx 0).val, (idx 0).isLt⟩ : ℝ) : EReal)) : Vec Ideal S512x1 .f32)
/-- The specification's row totals of rewards, as the second output array. -/
def G5 : Buf (Elt Ideal) ((c : Thread nD τ).loc main_v0_1) :=
  ((fun idx : S512x1.Idx => ((totalRew rr ⟨(idx 0).val, (idx 0).isLt⟩ : ℝ) : EReal)) : Vec Ideal S512x1 .f32)

/-- What an odd point writes back into the first output array is its block of the specification's totals. -/
theorem flushed4 (h : RealInputs (V m c main_arg0) (V m c main_arg1) (V m c main_arg2) (V m c main_arg3) xr ai rr tr) (t : Fin cfg0.N) (hf : (cfg0.win 4).flush t = true) :
    (dats m 0 c).flushed 4 t = ((cfg0.win 4).blk t).view.read (Elt Ideal) (G4 c xr ai tr) := by
  have hodd : t.val % 2 = 1 := (flush0_4 t).mp hf
  obtain ⟨-, -, -, -, ⟨i0, i1⟩, -⟩ := idx_facts t
  show (cfg0.win 4).cut (grid0.coords t) ((dats m 0 c).after 4 t) = _
  rw [after0_4]
  funext y
  obtain ⟨p, u, rfl⟩ : ∃ (p : Fin 64) (u : Fin 1), y = ix2 p u := ⟨y 0, y 1, eq_ix2 y⟩
  obtain rfl : u = 0 := Subsingleton.elim _ _
  rw [View.read_apply]
  show (outsAt0 m c t.val t.isLt).1 (ix2 p 0) = G4 c xr ai tr (((cfg0.win 4).blk t).view.emb (ix2 p 0))
  rw [(outs_odd m c xr ai rr tr h t (by omega) p).1]
  unfold G4
  show _ = ((totalLogp xr ai tr _ : ℝ) : EReal)
  refine congrArg (fun b => ((totalLogp xr ai tr b : ℝ) : EReal)) (Fin.ext ?_)
  show 64 * (t.val / 2) + p.val = win0_4.index t 0 * 64 + 1 * p.val
  rw [i0]; omega

/-- The same for the second output array. -/
theorem flushed5 (h : RealInputs (V m c main_arg0) (V m c main_arg1) (V m c main_arg2) (V m c main_arg3) xr ai rr tr) (t : Fin cfg0.N) (hf : (cfg0.win 5).flush t = true) :
    (dats m 0 c).flushed 5 t = ((cfg0.win 5).blk t).view.read (Elt Ideal) (G5 c rr) := by
  have hodd : t.val % 2 = 1 := (flush0_5 t).mp hf
  obtain ⟨-, -, -, -, -, ⟨i0, i1⟩⟩ := idx_facts t
  show (cfg0.win 5).cut (grid0.coords t) ((dats m 0 c).after 5 t) = _
  rw [after0_5]
  funext y
  obtain ⟨p, u, rfl⟩ : ∃ (p : Fin 64) (u : Fin 1), y = ix2 p u := ⟨y 0, y 1, eq_ix2 y⟩
  obtain rfl : u = 0 := Subsingleton.elim _ _
  rw [View.read_apply]
  show (outsAt0 m c t.val t.isLt).2 (ix2 p 0) = G5 c rr (((cfg0.win 5).blk t).view.emb (ix2 p 0))
  rw [(outs_odd m c xr ai rr tr h t (by omega) p).2]
  unfold G5
  show _ = ((totalRew rr _ : ℝ) : EReal)
  refine congrArg (fun b => ((totalRew rr b : ℝ) : EReal)) (Fin.ext ?_)
  show 64 * (t.val / 2) + p.val = win0_5.index t 0 * 64 + 1 * p.val
  rw [i0]; omega

/-- Every row of the first output array is in the block some odd point writes back. -/
theorem cover4 (i : ((cfg0.win 4).arr.view.loc ((c.tc : Thread nD τ))).2.ty.Idx) :
    ∃ t : Fin cfg0.N, (cfg0.win 4).flush t = true ∧ i ∈ ((cfg0.win 4).blk t).view.set := by
  have h0 : (i 0 : Nat) < 512 := (i 0).isLt
  have h1 : (i 1 : Nat) < 1 := (i 1).isLt
  let t : Fin cfg0.N := ⟨2 * ((i 0 : Nat) / 64) + 1, by rw [show cfg0.N = 16 from N_0]; omega⟩
  obtain ⟨-, -, -, -, ⟨i0, i1⟩, -⟩ := idx_facts t
  obtain ⟨⟨x0, x1⟩, -⟩ := xsize_facts t
  refine ⟨t, (flush0_4 t).mpr (by show (2 * ((i 0 : Nat) / 64) + 1) % 2 = 1; omega), ?_⟩
  show i ∈ ((View.whole main_v0_0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [i0, x0]; show (2 * ((i 0 : Nat) / 64) + 1) / 2 * 64 ≤ (i 0 : Nat) ∧ (i 0 : Nat) < (2 * ((i 0 : Nat) / 64) + 1) / 2 * 64 + 64; omega
  | ⟨1, _⟩ =>
    show win0_4.index t 1 * win0_4.size 1 ≤ (i 1 : Nat) ∧ (i 1 : Nat) < win0_4.index t 1 * win0_4.size 1 + win0_4.xsize (grid0.coords t) 1
    rw [i1, x1]; omega

/-- The same for the second output array. -/
theorem cover5 (i : ((cfg0.win 5).arr.view.loc ((c.tc : Thread nD τ))).2.ty.Idx) :
    ∃ t : Fin cfg0.N, (cfg0.win 5).flush t = true ∧ i ∈ ((cfg0.win 5).blk t).view.set := by
  have h0 : (i 0 : Nat) < 512 := (i 0).isLt
  have h1 : (i 1 : Nat) < 1 := (i 1).isLt
  let t : Fin cfg0.N := ⟨2 * ((i 0 : Nat) / 64) + 1, by rw [show cfg0.N = 16 from N_0]; omega⟩
  obtain ⟨-, -, -, -, -, ⟨i0, i1⟩⟩ := idx_facts t
  obtain ⟨-, ⟨x0, x1⟩⟩ := xsize_facts t
  refine ⟨t, (flush0_5 t).mpr (by show (2 * ((i 0 : Nat) / 64) + 1) % 2 = 1; omega), ?_⟩
  show i ∈ ((View.whole main_v0_1).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [i0, x0]; show (2 * ((i 0 : Nat) / 64) + 1) / 2 * 64 ≤ (i 0 : Nat) ∧ (i 0 : Nat) < (2 * ((i 0 : Nat) / 64) + 1) / 2 * 64 + 64; omega
  | ⟨1, _⟩ =>
    show win0_5.index t 1 * win0_5.size 1 ≤ (i 1 : Nat) ∧ (i 1 : Nat) < win0_5.index t 1 * win0_5.size 1 + win0_5.xsize (grid0.coords t) 1
    rw [i1, x1]; omega

/-- After the region the first output array holds the specification's row totals of log-probabilities. -/
theorem arr4_apply (h : RealInputs (V m c main_arg0) (V m c main_arg1) (V m c main_arg2) (V m c main_arg3) xr ai rr tr) (b : Fin 512) :
    (dats m 0 c).arrAt 4 cfg0.N (ix2 b (0 : Fin 1)) = ((totalLogp xr ai tr b : ℝ) : EReal) := by
  rw [(dats m 0 c).arrAt_eq_of_cover 4 (G4 c xr ai tr) (flushed4 m c xr ai rr tr h) (cover4 c)]
  rfl

/-- After the region the second output array holds the specification's row totals of rewards. -/
theorem arr5_apply (h : RealInputs (V m c main_arg0) (V m c main_arg1) (V m c main_arg2) (V m c main_arg3) xr ai rr tr) (b : Fin 512) :
    (dats m 0 c).arrAt 5 cfg0.N (ix2 b (0 : Fin 1)) = ((totalRew rr b : ℝ) : EReal) := by
  rw [(dats m 0 c).arrAt_eq_of_cover 5 (G5 c rr) (flushed5 m c xr ai rr tr h) (cover5 c)]
  rfl

end Cert.KernelIdeal.Hand

end
-- ==== Proof.KernelIdeal.Tail.lean ====
/-
  The host operations after the region are the shared tail of the two output arrays.

  After the region @main reshapes the two output arrays [512, 1] → [512] and applies to them the masked mean of their
  products and its normalisation — the function `Cert.Spec.tail`. So whatever the two arrays hold, row by row, the
  program's result is `tail` of those two vectors.
-/
import proofs.«421785_j36747740185105_3_alg».proof.Proof.KernelIdeal.Body
import proofs.«421785_j36747740185105_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- A [512, 1] array reshaped to [512] reads row `b` at `(b, 0)`: the two indices have the same row-major position
    (`b · 1 + 0 = b`). -/
theorem reshape_col {α : Type} (A : S512x1.Idx → α) (X : Cert.Spec.S512.Idx → α)
    (h : ∀ b : Fin 512, A (ix2 b (0 : Fin 1)) = X (ix1 b)) :
    (fun i => shapeCast S512 A shapeCasts_S512x1_S512 i) = X := by
  funext i
  rw [eq_ix1 i]
  refine (shapeCast_apply A shapeCasts_S512x1_S512 (ix1 (i 0)) (ix2 (i 0) (0 : Fin 1)) ?_).trans (h (i 0))
  rewrite [Shape.rowMajor_val_two, Shape.rowMajor_val_one]
  show (i 0).val * 1 + 0 = (i 0).val
  omega

/-- The result buffer after the host tail is `tail L R` whenever the two output arrays after the region hold `L` and `R`
    row by row. -/
theorem tail_eq (c : Dev nD) (L R : FVec Ideal Cert.Spec.S512 .f32)
    (hL : ∀ b : Fin 512, (dats (F := Ideal) m 0 c).arrAt 4 cfg0.N (ix2 b (0 : Fin 1)) = L (ix1 b))
    (hR : ∀ b : Fin 512, (dats (F := Ideal) m 0 c).arrAt 5 cfg0.N (ix2 b (0 : Fin 1)) = R (ix1 b)) :
    Pipeline.afterTail₀ cfgs (dats (F := Ideal) m) 0 (V0 m) [hostOps1, hostOps1_1, hostOps1_2] c main_v15 = Cert.Spec.tail L R := by
  unfold Pipeline.afterTail₀
  show StableHlo.after (List.flatten [hostOps1, hostOps1_1, hostOps1_2])
    (Pipeline.withArrays spec0 c (V0 m c) fun w => (dats (F := Ideal) m 0 c).arrAt w cfg0.N) (Proc.devRef .tc main_v15) = _
  -- the contents the region leaves, read at the two output arrays, are those arrays
  have h4 := Pipeline.withArrays_arr spec0 launch0.win.arr_inj c (V0 m c) (fun w => (dats (F := Ideal) m 0 c).arrAt w cfg0.N) 4
  have h5 := Pipeline.withArrays_arr spec0 launch0.win.arr_inj c (V0 m c) (fun w => (dats (F := Ideal) m 0 c).arrAt w cfg0.N) 5
  -- nothing else about the region's exit contents matters: name them `W`
  generalize (Pipeline.withArrays spec0 c (V0 m c) fun w => (dats (F := Ideal) m 0 c).arrAt w cfg0.N) = W at h4 h5 ⊢
  -- the two reshaped arrays are `L` and `R`
  have eL : (fun i => shapeCast main_v1.ty.shape (W (Proc.devRef .tc main_v0_0)) shapeCasts_S512x1_S512 i) = L :=
    reshape_col _ L fun b => (congrFun h4 _).trans (hL b)
  have eR : (fun i => shapeCast main_v2.ty.shape (W (Proc.devRef .tc main_v0_1)) shapeCasts_S512x1_S512 i) = R :=
    reshape_col _ R fun b => (congrFun h5 _).trans (hR b)
  -- each operation's result buffer holds its function of its operands' contents
  simp only [hostOps1, hostOps1_1, hostOps1_2, List.flatten_cons, List.flatten_nil, List.append_nil, List.cons_append, List.nil_append]
  after_results_simp
  rw [eL, eR]
  -- the called function's typed references carry their contents unchanged, and its `id` is the identity
  simp only [StableHlo.TRef.ofBuf, StableHlo.TRef.toBuf, cast_eq, id]
  -- what is left is `tail L R` written out, operation for operation
  rfl

end Cert.KernelIdeal.Hand

end
-- ==== Proof.RefOpsPlain.lean ====
/-
  The reference's @main as the list of its 72 host operations, each spelt with the plain operation builder at its
  buffers. (An operation of a callee inlined at its call site is first spelt over references that carry their tensor
  type; at literal references that is the plain operation.)
-/
import proofs.«421785_j36747740185105_3_alg».proof.Proof.RefRun

noncomputable section

namespace Cert.ReferenceIdeal.RunHand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The reference's 72 operations, in order, over the plain builders. -/
abbrev opsPlain : List (HloOp τ sig (Elt F)) :=
  [ StableHlo.nullary main_call0_cst (constant S_ .f32 0xFF800000#32),
    StableHlo.binary main_arg0 main_call0_cst main_call0_v0 (fun x v => Host.reduce FloatOps.maximumf x v reducesTo_S512x512x200_S512x512_d2 h_S_),
    StableHlo.nullary main_call0_cst_0 (constant S_ .f32 0xFF800000#32),
    StableHlo.unary main_call0_cst_0 main_call0_v1 (broadcastInDim S512x512 ![] bcast_S_S512x512),
    StableHlo.binary main_call0_v1 main_call0_v0 main_call0_v2 maximumf,
    StableHlo.unary main_call0_v2 main_call0_v3 (broadcastInDim S512x512x1 ![0, 1] bcast_S512x512_S512x512x1_0_1),
    StableHlo.unary main_call0_v3 main_call0_v4 (broadcastInDim S512x512x200 ![0, 1, 2] bcast_S512x512x1_S512x512x200_0_1_2),
    StableHlo.binary main_arg0 main_call0_v4 main_call0_v5 subf,
    StableHlo.unary main_call0_v5 main_call0_v6 Host.exp,
    StableHlo.nullary main_call0_cst_1 (constant S_ .f32 0x00000000#32),
    StableHlo.binary main_call0_v6 main_call0_cst_1 main_call0_v7 (fun x v => Host.reduceAdd x v reducesTo_S512x512x200_S512x512_d2 h_S_),
    StableHlo.unary main_call0_v7 main_call0_v8 (broadcastInDim S512x512x1 ![0, 1] bcast_S512x512_S512x512x1_0_1),
    StableHlo.unary main_call0_v8 main_call0_v9 Host.log,
    StableHlo.unary main_call0_v9 main_call0_v10 (broadcastInDim S512x512x200 ![0, 1, 2] bcast_S512x512x1_S512x512x200_0_1_2),
    StableHlo.binary main_call0_v5 main_call0_v10 main_v0 subf,
    nullary main_cst (constant S_ .f32 0x3F800000#32),
    unary main_cst main_v1 (broadcastInDim S512x512 ![] bcast_S_S512x512 : (⟨S_, .f32⟩ : BufTy).Contents (Elt F) → (⟨S512x512, .f32⟩ : BufTy).Contents (Elt F)),
    binary main_v1 main_arg3 main_v2 (subf : (⟨S512x512, .f32⟩ : BufTy).Contents (Elt F) → (⟨S512x512, .f32⟩ : BufTy).Contents (Elt F) → (⟨S512x512, .f32⟩ : BufTy).Contents (Elt F)),
    unary main_v2 main_v3 (broadcastInDim S512x512x1 ![0, 1] bcast_S512x512_S512x512x1_0_1 : (⟨S512x512, .f32⟩ : BufTy).Contents (Elt F) → (⟨S512x512x1, .f32⟩ : BufTy).Contents (Elt F)),
    unary main_v3 main_v4 (broadcastInDim S512x512x200 ![0, 1, 2] bcast_S512x512x1_S512x512x200_0_1_2 : (⟨S512x512x1, .f32⟩ : BufTy).Contents (Elt F) → (⟨S512x512x200, .f32⟩ : BufTy).Contents (Elt F)),
    binary main_v0 main_v4 main_v5 (mulf : (⟨S512x512x200, .f32⟩ : BufTy).Contents (Elt F) → (⟨S512x512x200, .f32⟩ : BufTy).Contents (Elt F) → (⟨S512x512x200, .f32⟩ : BufTy).Contents (Elt F)),
    unary main_arg1 main_v6 (broadcastInDim S512x512x1 ![0, 1] bcast_S512x512_S512x512x1_0_1 : (⟨S512x512, .i32⟩ : BufTy).Contents (Elt F) → (⟨S512x512x1, .i32⟩ : BufTy).Contents (Elt F)),
    StableHlo.nullary main_call1_c (constantI S_ 32 0#32),
    StableHlo.unary main_call1_c main_call1_v0 (broadcastInDim S512x512x1 ![] bcast_S_S512x512x1),
    StableHlo.binary main_v6 main_call1_v0 main_call1_v1 (cmpi .slt),
    StableHlo.nullary main_call1_c_0 (constantI S_ 32 200#32),
    StableHlo.unary main_call1_c_0 main_call1_v2 (broadcastInDim S512x512x1 ![] bcast_S_S512x512x1),
    StableHlo.binary main_v6 main_call1_v2 main_call1_v3 addi,
    StableHlo.ternary main_call1_v1 main_call1_v3 main_v6 main_call1_v4 select,
    StableHlo.reshape main_call1_v4 main_call1_v5 rfl shapeCasts_S512x512x1_S512x512x1x1,
    StableHlo.nullary main_call1_c_1 (constantI S1 32 199#32),
    StableHlo.nullary main_call1_c_2 (constantI S_ 32 0#32),
    StableHlo.unary main_call1_c_2 main_call1_v6 (broadcastInDim S512x512x1x1 ![] bcast_S_S512x512x1x1),
    StableHlo.binary main_call1_v5 main_call1_v6 main_call1_v7 (cmpi .sge),
    StableHlo.unary main_call1_c_1 main_call1_v8 (broadcastInDim S1x1x1x1 ![3] bcast_S1_S1x1x1x1_3),
    StableHlo.unary main_call1_v8 main_call1_v9 (broadcastInDim S512x512x1x1 ![0, 1, 2, 3] bcast_S1x1x1x1_S512x512x1x1_0_1_2_3),
    StableHlo.binary main_call1_v5 main_call1_v9 main_call1_v10 (cmpi .sle),
    StableHlo.binary main_call1_v7 main_call1_v10 main_call1_v11 andi,
    StableHlo.nullary main_call1_c_3 (constantI S_ 1 1#1),
    StableHlo.binary main_call1_v11 main_call1_c_3 main_call1_v12 (fun x v => Host.reduce IntOp.andi x v reducesTo_S512x512x1x1_S512x512x1_d3 h_S_),
    StableHlo.binary main_v5 main_call1_v5 main_call1_v13 (fun x i => Host.gather gather_S512x512x200_S512x512x1x1_S512x512x1_n_2_01_01_2_3_111 x i),
    StableHlo.nullary main_call1_cst (constant S_ .f32 0x7FC00000#32),
    StableHlo.unary main_call1_cst main_call1_v14 (broadcastInDim S512x512x1 ![] bcast_S_S512x512x1),
    StableHlo.ternary main_call1_v12 main_call1_v13 main_call1_v14 main_v7 select,
    reshape main_v7 main_v8 rfl shapeCasts_S512x512x1_S512x512,
    nullary main_cst_0 (constant S_ .f32 0x00000000#32),
    binary main_v8 main_cst_0 main_v9 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    unary main_v9 main_v10 (Host.negf : (⟨S512, .f32⟩ : BufTy).Contents (Elt F) → (⟨S512, .f32⟩ : BufTy).Contents (Elt F)),
    nullary main_cst_1 (constant S_ .f32 0x00000000#32),
    binary main_arg2 main_cst_1 main_v11 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    binary main_v10 main_v11 main_v12 (mulf : (⟨S512, .f32⟩ : BufTy).Contents (Elt F) → (⟨S512, .f32⟩ : BufTy).Contents (Elt F) → (⟨S512, .f32⟩ : BufTy).Contents (Elt F)),
    nullary main_cst_2 (constant S_ .f32 0x47C35000#32),
    unary main_cst_2 main_v13 (broadcastInDim S512 ![] bcast_S_S512 : (⟨S_, .f32⟩ : BufTy).Contents (Elt F) → (⟨S512, .f32⟩ : BufTy).Contents (Elt F)),
    binary main_v10 main_v13 main_v14 (cmpf .olt : (⟨S512, .f32⟩ : BufTy).Contents (Elt F) → (⟨S512, .f32⟩ : BufTy).Contents (Elt F) → (⟨S512, .i1⟩ : BufTy).Contents (Elt F)),
    unary main_v14 main_v15 (uitofp .f32 : (⟨S512, .i1⟩ : BufTy).Contents (Elt F) → (⟨S512, .f32⟩ : BufTy).Contents (Elt F)),
    nullary main_cst_3 (constant S_ .f32 0x00000000#32),
    binary main_v15 main_cst_3 main_v16 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_4 (constant S_ .f32 0x00000000#32),
    StableHlo.unary main_cst_4 main_call2_v0 id,
    StableHlo.unary main_call2_v0 main_call2_v1 (broadcastInDim S512 ![] bcast_S_S512),
    StableHlo.ternary main_v14 main_v12 main_call2_v1 main_v17 select,
    nullary main_cst_5 (constant S_ .f32 0x00000000#32),
    binary main_v17 main_cst_5 main_v18 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    binary main_v18 main_v16 main_v19 (Host.divf : (⟨S_, .f32⟩ : BufTy).Contents (Elt F) → (⟨S_, .f32⟩ : BufTy).Contents (Elt F) → (⟨S_, .f32⟩ : BufTy).Contents (Elt F)),
    unary main_v11 main_v20 (Host.absf : (⟨S512, .f32⟩ : BufTy).Contents (Elt F) → (⟨S512, .f32⟩ : BufTy).Contents (Elt F)),
    nullary main_cst_6 (constant S_ .f32 0x00000000#32),
    binary main_v20 main_cst_6 main_v21 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_7 (constant S_ .f32 0x44000000#32),
    binary main_v21 main_cst_7 main_v22 (Host.divf : (⟨S_, .f32⟩ : BufTy).Contents (Elt F) → (⟨S_, .f32⟩ : BufTy).Contents (Elt F) → (⟨S_, .f32⟩ : BufTy).Contents (Elt F)),
    nullary main_cst_8 (constant S_ .f32 0x322BCC77#32),
    binary main_v22 main_cst_8 main_v23 (addf : (⟨S_, .f32⟩ : BufTy).Contents (Elt F) → (⟨S_, .f32⟩ : BufTy).Contents (Elt F) → (⟨S_, .f32⟩ : BufTy).Contents (Elt F)),
    binary main_v19 main_v23 main_v24 (Host.divf : (⟨S_, .f32⟩ : BufTy).Contents (Elt F) → (⟨S_, .f32⟩ : BufTy).Contents (Elt F) → (⟨S_, .f32⟩ : BufTy).Contents (Elt F)) ]

end Cert.ReferenceIdeal.RunHand

end
-- ==== Proof.RefRunHand.lean ====
/-
  The reference program's run, read back against its stages.

  The reference's @main is a straight line of 72 host operations: a log-softmax of the logits over the 200 classes, the
  mask `1 - terminals`, their product, the gather of the action's entry, the row sums, and the scalar tail. Every weakly
  fair execution of it terminates, the four arguments unchanged, with the result buffer at the last stage's value
  `val_main_v24` of the arguments: each operation writes its function's value of the buffers it reads, so the contents
  after the whole list, read at the result, unfold to the composition of the stages.

  The operations of the three callees inlined in @main are spelt over references that carry their tensor type, with
  the function moved along the (trivial) equation between that type and the buffer's. At literal references that is
  the plain operation with the same function; for the two operations whose function is a reduction over a whole array
  (the row maximum; the conjunction over a unit axis) this is stated for an ARBITRARY function, so that the reduction
  is never opened; for the other thirty-eight it holds by computation. The read-back is then the ordinary one.
-/
import proofs.«421785_j36747740185105_3_alg».proof.Proof.RefRead
import proofs.«421785_j36747740185105_3_alg».proof.Proof.RefOpsPlain
import Idealize.ShloMosaic.Lib.StableHlo.Run

noncomputable section

namespace Cert.ReferenceIdeal.RunHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A two-operand operation over typed references at literal references is the plain one, whatever its function. -/
theorem tref_binary_eq (a b y : Ref sig .tc) (ha : a.space ≠ .host) (ha' : a.isScoped = false)
    (hb : b.space ≠ .host) (hb' : b.isScoped = false) (hy : y.space ≠ .host) (hy' : y.isScoped = false)
    (f : a.ty.Contents (Elt F) → b.ty.Contents (Elt F) → y.ty.Contents (Elt F)) :
    TRef.binary (τ := τ) (⟨a, rfl, ha, ha'⟩ : TRef sig a.ty) (⟨b, rfl, hb, hb'⟩ : TRef sig b.ty) (⟨y, rfl, hy, hy'⟩ : TRef sig y.ty) f
      = StableHlo.binary a b y f ⟨ha, ha'⟩ ⟨hb, hb'⟩ ⟨hy, hy'⟩ := rfl

/-- The row maximum of the log-softmax, as a plain operation. -/
theorem rowMax_eq : (TRef.binary (TRef.of (T := ⟨S512x512x200, .f32⟩) main_arg0) (TRef.of (T := ⟨S_, .f32⟩) main_call0_cst) (TRef.of (T := ⟨S512x512, .f32⟩) main_call0_v0) (fun x v => Host.reduce FloatOps.maximumf x v reducesTo_S512x512x200_S512x512_d2 h_S_) : HloOp τ sig (Elt F))
    = StableHlo.binary main_arg0 main_call0_cst main_call0_v0 (fun x v => Host.reduce FloatOps.maximumf x v reducesTo_S512x512x200_S512x512_d2 h_S_) :=
  tref_binary_eq main_arg0 main_call0_cst main_call0_v0 _ _ _ _ _ _ _

/-- The gather's bounds test reduced over its unit axis, as a plain operation. -/
theorem inBounds_eq : (TRef.binary (TRef.of (T := ⟨S512x512x1x1, .i1⟩) main_call1_v11) (TRef.of (T := ⟨S_, .i1⟩) main_call1_c_3) (TRef.of (T := ⟨S512x512x1, .i1⟩) main_call1_v12) (fun x v => Host.reduce IntOp.andi x v reducesTo_S512x512x1x1_S512x512x1_d3 h_S_) : HloOp τ sig (Elt F))
    = StableHlo.binary main_call1_v11 main_call1_c_3 main_call1_v12 (fun x v => Host.reduce IntOp.andi x v reducesTo_S512x512x1x1_S512x512x1_d3 h_S_) :=
  tref_binary_eq main_call1_v11 main_call1_c_3 main_call1_v12 _ _ _ _ _ _ _

set_option maxRecDepth 8192 in
set_option maxHeartbeats 4000000 in
/-- The two spellings of the reference's operation list are one list. -/
theorem ops_eq : (ops : List (HloOp τ sig (Elt F))) = opsPlain := by
  unfold ops opsPlain
  rw [rowMax_eq, inBounds_eq]
  rfl

theorem main_eq' (c : Dev nD) : main (F := F) c = seq opsPlain := (main_eq c).trans (congrArg seq ops_eq)

theorem ops_sub' : (opsPlain : List (HloOp τ sig (Elt F))).Forall fun op => op.bufs ⊆ tcRefs τ sig := by
  rw [← ops_eq]; exact ops_sub

set_option maxRecDepth 8192 in
set_option maxHeartbeats 28800000 in
/-- The reference's run: it terminates with its result at the last stage's value of the arguments' launch
    contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = val_main_v24 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => opsPlain) main_eq' (fun _ => ops_sub') m ρ)

end Cert.ReferenceIdeal.RunHand

end
-- ==== Proof.RefValue.lean ====
/-
  The reference's value, at the extended reals, is the specification.

  For real inputs with the actions in range, the reference's vector of row totals (its stage `val_main_v10`: minus the
  row sums of the gathered, masked log-softmax) is the coercion of `Cert.Spec.totalLogp`, its vector of reward totals
  (`val_main_v11`) the coercion of `Cert.Spec.totalRew`, and its result is `Cert.Spec.tail` of the two.

  The log-softmax subtracts the row's maximum before the exponential; over the reals that shift cancels:
  (x - M) - log Σ exp (x - M) = x - log Σ exp x. The gather with an in-range index reads the entry at the action, and its
  out-of-range fill is never selected.
-/
import proofs.«421785_j36747740185105_3_alg».proof.Proof.RefRead
import proofs.«421785_j36747740185105_3_alg».proof.Proof.Spec
import Idealize.ShloMosaic.PureOps.Ideal.Laws
import Idealize.ShloMosaic.Lib.ValueIdx
import Idealize.ShloMosaic.Lib.Pipeline.Value
import Idealize.ShloMosaic.Lib.Affine

noncomputable section

namespace Cert.ReferenceIdeal.RefValue

open Cert.ReferenceIdeal Cert.ReferenceIdeal.Gen Cert.ReferenceIdeal.ReadP
open Idealize.ShloMosaic Idealize.ShloMosaic.ValueIdx Idealize.ShloMosaic.TcCoe
open scoped BigOperators

variable (x : Vec Ideal S512x512x200 .f32) (a : Vec Ideal S512x512 .i32) (r t : Vec Ideal S512x512 .f32)
  (xr : Fin 512 → Fin 512 → Fin 200 → ℝ) (ai : Fin 512 → Fin 512 → Fin 200) (rr tr : Fin 512 → Fin 512 → ℝ)

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s (by simp) fun i s hi ih => ?_
  rw [Finset.sum_insert hi, Finset.sum_insert hi, EReal.coe_add, ih]

/-- A fold of `max` from `⊥` over coerced reals is `⊥` on the empty set and a coerced real otherwise. -/
theorem fold_max_coe {ι : Type} [DecidableEq ι] (s : Finset ι) (f : ι → ℝ) :
    (s = ∅ ∧ s.fold max (⊥ : EReal) (fun i => ((f i : ℝ) : EReal)) = ⊥) ∨
      ∃ m : ℝ, s.fold max (⊥ : EReal) (fun i => ((f i : ℝ) : EReal)) = (m : EReal) := by
  induction s using Finset.induction_on with
  | empty => exact Or.inl ⟨rfl, Finset.fold_empty⟩
  | insert i s hi ih =>
    right
    rw [Finset.fold_insert hi]
    rcases ih with ⟨_, h0⟩ | ⟨m, hm⟩
    · rw [h0]; exact ⟨f i, max_eq_left bot_le⟩
    · rw [hm]; exact ⟨max (f i) m, (EReal.coe_strictMono.monotone.map_max).symm⟩

/-- The f32 pattern of minus infinity denotes `⊥`. -/
theorem ofBits_neg_inf : Ideal.ofBits .f32 0xFF800000#32 = ⊥ := by
  simp [Ideal.ofBits, Ideal.ieee]

/-- The f32 pattern of `1.0` denotes the real `1`. -/
theorem ofBits_one : Ideal.ofBits .f32 0x3F800000#32 = ((1 : ℝ) : EReal) := by
  rw [EReal.coe_one]
  simp [Ideal.ofBits, Ideal.ieee, -EReal.coe_mul]; norm_num

/-- The row maximum the log-softmax subtracts is a real number. -/
theorem rowmax_real (h : Cert.Spec.RealInputs x a r t xr ai rr tr) (b s : Fin 512) :
    ∃ m : ℝ, val_main_call0_v2 (F := Ideal) x (ix2 b s) = (m : EReal) := by
  have hR : S512x512x200.Reduces [2] S512x512 := by decide
  have hfun : (x ∘ hR.lift (ix2 b s)) = fun k : Fin 200 => ((xr b s k : ℝ) : EReal) := by
    funext k
    show x (hR.lift (ix2 b s) k) = _
    rw [← h.hx b s k]
    exact congrArg x (funext fun d => by
      match d with
      | ⟨0, _⟩ => exact Fin.ext rfl
      | ⟨1, _⟩ => exact Fin.ext rfl
      | ⟨2, _⟩ => exact Fin.ext rfl)
  rw [val_main_call0_v2_apply, val_main_call0_v1_apply, val_main_call0_cst_0_apply]
  unfold val_main_call0_v0
  rw [Host.reduce_eq_fold_single _ _ _ reducesTo_S512x512x200_S512x512_d2 hR h_S_, hfun,
    val_main_call0_cst_apply, Ideal.ofBits_def, ofBits_neg_inf]
  rcases fold_max_coe (Finset.univ : Finset (Fin 200)) (xr b s) with ⟨he, _⟩ | ⟨m, hm⟩
  · exact absurd he (Finset.univ_nonempty (α := Fin 200)).ne_empty
  · refine ⟨m, ?_⟩
    show max (⊥ : EReal) (Finset.fold max (⊥ : EReal) (fun k => ((xr b s k : ℝ) : EReal)) Finset.univ) = _
    rw [hm]; exact max_eq_right bot_le

/-- Subtracting a constant before the exponentials does not change a log-softmax entry. -/
theorem shift_cancel (f : Fin 200 → ℝ) (m c : ℝ) :
    (c - m) - Real.log (∑ k, Real.exp (f k - m)) = c - Real.log (∑ k, Real.exp (f k)) := by
  have hS : 0 < ∑ k, Real.exp (f k) :=
    Finset.sum_pos (fun k _ => Real.exp_pos _) (Finset.univ_nonempty (α := Fin 200))
  have hsum : ∑ k, Real.exp (f k - m) = (∑ k, Real.exp (f k)) / Real.exp m := by
    rw [Finset.sum_div]
    exact Finset.sum_congr rfl fun k _ => Real.exp_sub _ _
  rw [hsum, Real.log_div hS.ne' (Real.exp_pos m).ne', Real.log_exp]
  ring

/-- The reference's log-softmax entry at (b, s, k) is the real log-softmax of row (b, s) at k. -/
theorem lsm_entry (h : Cert.Spec.RealInputs x a r t xr ai rr tr) (b s : Fin 512) (k : Fin 200) :
    val_main_v0 (F := Ideal) x (ix3 b s k)
      = ((xr b s k - Real.log (∑ k', Real.exp (xr b s k')) : ℝ) : EReal) := by
  obtain ⟨m, hm⟩ := rowmax_real x a r t xr ai rr tr h b s
  -- the shifted entry x - M
  have h5 : ∀ k : Fin 200, val_main_call0_v5 (F := Ideal) x (ix3 b s k) = ((xr b s k - m : ℝ) : EReal) := by
    intro k
    have hi : idx_main_call0_v3 (idx_main_call0_v4 (ix3 b s k)) = ix2 b s :=
      funext fun d => by match d with | ⟨0, _⟩ => rfl | ⟨1, _⟩ => rfl
    rw [val_main_call0_v5_apply, val_main_call0_v4_apply, val_main_call0_v3_apply, hi, hm, h.hx]
    rfl
  -- the sum of the exponentials of the shifted row
  have h7 : val_main_call0_v7 (F := Ideal) x (ix2 b s) = ((∑ k', Real.exp (xr b s k' - m) : ℝ) : EReal) := by
    rw [val_main_call0_v7_apply, val_main_call0_cst_1_apply, Ideal.ofBits_def, Ideal.ofBits_zero_f32, zero_add, coe_sum]
    refine Finset.sum_congr rfl fun k' _ => ?_
    have hi : idx_main_call0_v7 (ix2 b s) k' = ix3 b s k' :=
      funext fun d => by match d with | ⟨0, _⟩ => rfl | ⟨1, _⟩ => rfl | ⟨2, _⟩ => rfl
    rw [val_main_call0_v6_apply, hi, h5 k']
    rfl
  have hpos : 0 < ∑ k', Real.exp (xr b s k' - m) :=
    Finset.sum_pos (fun k _ => Real.exp_pos _) (Finset.univ_nonempty (α := Fin 200))
  -- its logarithm, broadcast back along the classes
  have h10 : val_main_call0_v10 (F := Ideal) x (ix3 b s k) = ((Real.log (∑ k', Real.exp (xr b s k' - m)) : ℝ) : EReal) := by
    have hi : idx_main_call0_v8 (idx_main_call0_v10 (ix3 b s k)) = ix2 b s :=
      funext fun d => by match d with | ⟨0, _⟩ => rfl | ⟨1, _⟩ => rfl
    rw [val_main_call0_v10_apply, val_main_call0_v9_apply, val_main_call0_v8_apply, hi, h7, Ideal.hostUnary_log_def,
      Ideal.log_coe, if_neg (not_le.mpr hpos)]
  rw [val_main_v0_apply, h5 k, h10, Ideal.subf_def, ← EReal.coe_sub, shift_cancel]

/-- The mask entry at (b, s, k) is one minus the terminal weight of (b, s). -/
theorem mask_entry (h : Cert.Spec.RealInputs x a r t xr ai rr tr) (b s : Fin 512) (k : Fin 200) :
    val_main_v4 (F := Ideal) t (ix3 b s k) = ((1 - tr b s : ℝ) : EReal) := by
  have hi : idx_main_v3 (idx_main_v4 (ix3 b s k)) = ix2 b s :=
    funext fun d => by match d with | ⟨0, _⟩ => rfl | ⟨1, _⟩ => rfl
  rw [val_main_v4_apply, val_main_v3_apply, val_main_v2_apply, val_main_v1_apply, val_main_cst_apply, Ideal.ofBits_def,
    ofBits_one, hi, h.ht]
  rfl

/-- The masked log-softmax entry at (b, s, k). -/
theorem masked_entry (h : Cert.Spec.RealInputs x a r t xr ai rr tr) (b s : Fin 512) (k : Fin 200) :
    val_main_v5 (F := Ideal) x t (ix3 b s k)
      = (((xr b s k - Real.log (∑ k', Real.exp (xr b s k'))) * (1 - tr b s) : ℝ) : EReal) := by
  rw [val_main_v5_apply, lsm_entry x a r t xr ai rr tr h, mask_entry x a r t xr ai rr tr h]
  exact (EReal.coe_mul _ _).symm

/-- The gather of the reference (batch axes 0 and 1, the class axis collapsed, one start-index component) read at
    (b, s, 0): the operand at (b, s, c) with c the start index at (b, s, 0, 0), read signed and clamped into [0, 199]. -/
theorem gather_read (v : S512x512x200.Idx → EReal) (idx : IVec S512x512x1x1 32) (b s : Fin 512) :
    Host.gather gather_S512x512x200_S512x512x1x1_S512x512x1_n_2_01_01_2_3_111 v idx (ix3 b s (0 : Fin 1))
      = v (ix3 b s (⟨min (idx (ix4 b s (0 : Fin 1) (0 : Fin 1))).toInt.toNat 199, by omega⟩ : Fin 200)) := by
  unfold Host.gather
  refine congrArg v (funext fun d => Fin.ext ?_)
  match d with
  | ⟨0, _⟩ =>
    show GatherDims.start _ _ idx 0 + GatherDims.batchCoord _ _ 0 + GatherDims.offCoord _ _ 0 = b.val
    rw [GatherDims.start_batching _ _ _ _ (by decide), GatherDims.offCoord_eq_zero _ _ _ (by decide),
      Nat.zero_add, Nat.add_zero]
    rfl
  | ⟨1, _⟩ =>
    show GatherDims.start _ _ idx 1 + GatherDims.batchCoord _ _ 1 + GatherDims.offCoord _ _ 1 = s.val
    rw [GatherDims.start_batching _ _ _ _ (by decide), GatherDims.offCoord_eq_zero _ _ _ (by decide),
      Nat.zero_add, Nat.add_zero]
    rfl
  | ⟨2, _⟩ =>
    show GatherDims.start _ _ idx 2 + GatherDims.batchCoord _ _ 2 + GatherDims.offCoord _ _ 2
      = min (idx (ix4 b s (0 : Fin 1) (0 : Fin 1))).toInt.toNat 199
    rw [GatherDims.batchCoord_eq_zero _ _ _ (by decide), GatherDims.offCoord_eq_zero _ _ _ (by decide),
      Nat.add_zero]
    unfold GatherDims.start
    rw [dif_pos (by decide)]
    refine congrArg (fun i => min (idx i).toInt.toNat 199) (funext fun e => Fin.ext ?_)
    match e with
    | ⟨0, _⟩ => rfl
    | ⟨1, _⟩ => rfl
    | ⟨2, _⟩ => rfl
    | ⟨3, _⟩ => rfl

/-- The 32-bit word of an index below 200: not negative, within [0, 199], and read signed it is the index. -/
theorem word_facts (n : ℕ) (hn : n < 200) :
    IntOp.cmpi .slt (BitVec.ofNat 32 n) 0#32 = 0#1 ∧ IntOp.cmpi .sge (BitVec.ofNat 32 n) 0#32 = 1#1 ∧
      IntOp.cmpi .sle (BitVec.ofNat 32 n) 199#32 = 1#1 ∧ (BitVec.ofNat 32 n).toInt.toNat = n := by
  have hN : (BitVec.ofNat 32 n).toNat = n := by
    rw [BitVec.toNat_ofNat]; exact Nat.mod_eq_of_lt (by omega)
  have hI : (BitVec.ofNat 32 n).toInt = (n : Int) := by
    rw [BitVec.toInt_eq_toNat_of_lt (by rw [hN]; omega), hN]
  have e0 : (0#32 : BitVec 32).toInt = 0 := by decide
  have e199 : (199#32 : BitVec 32).toInt = 199 := by decide
  refine ⟨eq_zero_of_ne_one fun hc => ?_, IntOp.cmpi_sge.mpr ?_, IntOp.cmpi_sle.mpr ?_, ?_⟩
  · have := IntOp.cmpi_slt.mp hc
    rw [hI, e0] at this
    omega
  · rw [hI, e0]; omega
  · rw [hI, e199]; omega
  · rw [hI]; omega

/-- The start index the gather reads at (b, s, ·, ·) is the action's word: the wrap of negative indices is not taken. -/
theorem start_word (h : Cert.Spec.RealInputs x a r t xr ai rr tr) (b s : Fin 512) (e f : Fin 1) :
    val_main_call1_v5 (F := Ideal) a (ix4 b s e f) = BitVec.ofNat 32 (ai b s).val := by
  have hb := b.isLt
  have hs := s.isLt
  have he : e.val = 0 := by have := e.isLt; omega
  have hf : f.val = 0 := by have := f.isLt; omega
  have hi : idx_main_call1_v5 (ix4 b s e f) = ix3 b s (0 : Fin 1) :=
    funext fun d => by
      match d with
      | ⟨0, _⟩ =>
        refine Fin.ext ?_
        show (((b.val * 512 + s.val) * 1 + e.val) * 1 + f.val) / 512 = b.val
        omega
      | ⟨1, _⟩ =>
        refine Fin.ext ?_
        show (((b.val * 512 + s.val) * 1 + e.val) * 1 + f.val) / 1 % 512 = s.val
        omega
      | ⟨2, _⟩ => rfl
  have h6 : val_main_v6 (F := Ideal) a (ix3 b s (0 : Fin 1)) = BitVec.ofNat 32 (ai b s).val := by
    have hj : idx_main_v6 (ix3 b s (0 : Fin 1)) = ix2 b s :=
      funext fun d => by match d with | ⟨0, _⟩ => rfl | ⟨1, _⟩ => rfl
    rw [val_main_v6_apply, hj, h.ha]
  rw [val_main_call1_v5_apply, hi, val_main_call1_v4_apply, val_main_call1_v1_apply, h6, val_main_call1_v0_apply,
    val_main_call1_c_apply, (word_facts _ (ai b s).isLt).1, select_zero]

/-- One-bit words all equal to one fold by `and`, from one, to one. -/
theorem fold_andi_ones {ι : Type} [DecidableEq ι] (S : Finset ι) (g : ι → BitVec 1) (hg : ∀ i, g i = 1#1) :
    S.fold IntOp.andi 1#1 g = 1#1 := by
  induction S using Finset.induction_on with
  | empty => exact Finset.fold_empty
  | insert i S hi ih => rw [Finset.fold_insert hi, ih, hg]; decide

/-- The bounds test of the gather holds at every start index of row (b, s). -/
theorem inrange (h : Cert.Spec.RealInputs x a r t xr ai rr tr) (b s : Fin 512) (e f : Fin 1) :
    val_main_call1_v11 (F := Ideal) a (ix4 b s e f) = 1#1 := by
  have hw := word_facts _ (ai b s).isLt
  rw [val_main_call1_v11_apply, val_main_call1_v7_apply, val_main_call1_v10_apply, start_word x a r t xr ai rr tr h,
    val_main_call1_v6_apply, val_main_call1_c_2_apply, val_main_call1_v9_apply, val_main_call1_v8_apply,
    val_main_call1_c_1_apply, hw.2.1, hw.2.2.1]
  decide

/-- So its conjunction over the one-element axis is one. -/
theorem inrange_all (h : Cert.Spec.RealInputs x a r t xr ai rr tr) (b s : Fin 512) :
    val_main_call1_v12 (F := Ideal) a (ix3 b s (0 : Fin 1)) = 1#1 := by
  have hR : S512x512x1x1.Reduces [3] S512x512x1 := by decide
  unfold val_main_call1_v12
  rw [Host.reduce_eq_fold_single IntOp.andi _ _ reducesTo_S512x512x1x1_S512x512x1_d3 hR h_S_, val_main_call1_c_3_apply]
  refine fold_andi_ones _ _ fun k => ?_
  show val_main_call1_v11 (F := Ideal) a (hR.lift (ix3 b s (0 : Fin 1)) k) = 1#1
  rw [eq_ix4 (hR.lift (ix3 b s (0 : Fin 1)) k)]
  exact inrange x a r t xr ai rr tr h b s _ _

/-- The entry taken at step (b, s) is the specification's masked log-probability of the action. -/
theorem taken_entry (h : Cert.Spec.RealInputs x a r t xr ai rr tr) (b s : Fin 512) :
    val_main_v8 (F := Ideal) x a t (ix2 b s) = ((Cert.Spec.stepLogp xr ai tr b s : ℝ) : EReal) := by
  have hb := b.isLt
  have hs := s.isLt
  have hi : idx_main_v8 (ix2 b s) = ix3 b s (0 : Fin 1) :=
    funext fun d => by
      match d with
      | ⟨0, _⟩ =>
        refine Fin.ext ?_
        show (b.val * 512 + s.val) / 512 = b.val
        omega
      | ⟨1, _⟩ =>
        refine Fin.ext ?_
        show (b.val * 512 + s.val) / 1 % 512 = s.val
        omega
      | ⟨2, _⟩ => rfl
  rw [val_main_v8_apply, hi, val_main_v7_apply, inrange_all x a r t xr ai rr tr h, select_one]
  unfold val_main_call1_v13
  refine (gather_read _ _ b s).trans ?_
  refine (congrArg (fun k => val_main_v5 (F := Ideal) x t (ix3 b s k)) (Fin.ext ?_ : _ = ai b s)).trans ?_
  · show min (val_main_call1_v5 (F := Ideal) a (ix4 b s (0 : Fin 1) (0 : Fin 1))).toInt.toNat 199 = (ai b s).val
    rw [start_word x a r t xr ai rr tr h, (word_facts _ (ai b s).isLt).2.2.2]
    have := (ai b s).isLt
    omega
  · exact masked_entry x a r t xr ai rr tr h b s (ai b s)

/-- The reference's row totals of log-probabilities are the specification's. -/
theorem ref_L (h : Cert.Spec.RealInputs x a r t xr ai rr tr) (b : Fin 512) :
    val_main_v10 (F := Ideal) x a t (ix1 b) = ((Cert.Spec.totalLogp xr ai tr b : ℝ) : EReal) := by
  rw [val_main_v10_apply, val_main_v9_apply, val_main_cst_0_apply, Ideal.ofBits_def, Ideal.ofBits_zero_f32, zero_add,
    Ideal.hostNegf_def, Ideal.negf_def]
  unfold Cert.Spec.totalLogp
  rw [EReal.coe_neg, coe_sum]
  refine congrArg Neg.neg (Finset.sum_congr rfl fun k _ => ?_)
  have hi : idx_main_v9 (ix1 b) k = ix2 b k :=
    funext fun d => by match d with | ⟨0, _⟩ => rfl | ⟨1, _⟩ => rfl
  rw [hi, taken_entry x a r t xr ai rr tr h]

end Cert.ReferenceIdeal.RefValue

end
-- ==== Proof.RefTail.lean ====
/-
  Two small facts about the reference's stages at the extended reals: its vector of reward totals is the row sums of
  the rewards, and its last fourteen operations (the masked mean and its normalisation) are the shared function
  `Cert.Spec.tail` of its two vectors of row totals.
-/
import proofs.«421785_j36747740185105_3_alg».proof.Proof.RefRead
import proofs.«421785_j36747740185105_3_alg».proof.Proof.Spec
import Idealize.ShloMosaic.PureOps.Ideal.Laws
import Idealize.ShloMosaic.Lib.ValueIdx
import Idealize.ShloMosaic.Lib.Pipeline.Value

noncomputable section

namespace Cert.ReferenceIdeal.RefTail

open Cert.ReferenceIdeal Cert.ReferenceIdeal.Gen Cert.ReferenceIdeal.ReadP
open Idealize.ShloMosaic Idealize.ShloMosaic.ValueIdx Idealize.ShloMosaic.TcCoe
open scoped BigOperators

variable (x : Vec Ideal S512x512x200 .f32) (a : Vec Ideal S512x512 .i32) (r t : Vec Ideal S512x512 .f32)
  (xr : Fin 512 → Fin 512 → Fin 200 → ℝ) (ai : Fin 512 → Fin 512 → Fin 200) (rr tr : Fin 512 → Fin 512 → ℝ)

/-- The coercion of a finite sum of reals is the sum of the coercions. -/
theorem coe_finset_sum {ι : Type} (s : Finset ι) (f : ι → ℝ) :
    ((∑ i ∈ s, f i : ℝ) : EReal) = ∑ i ∈ s, ((f i : ℝ) : EReal) := by
  classical
  refine Finset.induction_on s (by simp) fun i s hi ih => ?_
  rw [Finset.sum_insert hi, Finset.sum_insert hi, EReal.coe_add, ih]

/-- The reference's row totals of rewards are the specification's. -/
theorem ref_R (h : Cert.Spec.RealInputs x a r t xr ai rr tr) (b : Fin 512) :
    val_main_v11 (F := Ideal) r (ix1 b) = ((Cert.Spec.totalRew rr b : ℝ) : EReal) := by
  -- the stage at row b is the initial value plus the sum of the row's entries; the initial value is zero
  rw [val_main_v11_apply, val_main_cst_1_apply, Ideal.ofBits_def, Ideal.ofBits_zero_f32, zero_add]
  unfold Cert.Spec.totalRew
  rw [coe_finset_sum]
  refine Finset.sum_congr rfl fun k _ => ?_
  -- the entry read is the one at (b, k), which is the coercion of the real reward
  rw [← h.hr b k]
  exact congrArg r (funext fun d => by match d with | ⟨0, _⟩ => rfl | ⟨1, _⟩ => rfl)

/-- The reference's last fourteen operations are the shared tail of its two vectors of row totals. -/
theorem ref_tail :
    val_main_v24 (F := Ideal) x a r t = Cert.Spec.tail (val_main_v10 (F := Ideal) x a t) (val_main_v11 (F := Ideal) r) := by
  -- both sides are the same fourteen operations applied to the same two vectors
  unfold val_main_v24 val_main_v23 val_main_v22 val_main_v21 val_main_v20 val_main_v19 val_main_v18 val_main_v17
    val_main_v16 val_main_v15 val_main_v14 val_main_v13 val_main_v12 val_main_call2_v1 val_main_call2_v0
    val_main_cst_2 val_main_cst_3 val_main_cst_4 val_main_cst_5 val_main_cst_6 val_main_cst_7 val_main_cst_8
    Cert.Spec.tail
  generalize val_main_v10 (F := Ideal) x a t = L
  generalize val_main_v11 (F := Ideal) r = R
  rfl

end Cert.ReferenceIdeal.RefTail

end
-- ==== Proof.PreFacts.lean ====
/-
  What the precondition says about the four argument arrays: every float entry is finite, hence the coercion of a
  real number, and every action lies in [0, 200), hence is the 32-bit word of an index below 200.
-/
import proofs.«421785_j36747740185105_3_alg».proof.Pre_finite_inputs
import proofs.«421785_j36747740185105_3_alg».proof.Proof.Gen.Pre_finite_inputs
import proofs.«421785_j36747740185105_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Pre_finite_inputs.Gen
open scoped BigOperators

/-- The result shape of a reduction over all axes has a single index. -/
instance : Subsingleton Cert.Pre_finite_inputs.S_.Idx := ⟨fun _ _ => funext fun d => d.elim0⟩

/-- An extended real whose absolute value is below the value of the f32 infinity pattern (+∞) is the coercion of a real. -/
theorem eq_coe_toReal_of_abs_lt (v : EReal)
    (hv : Ideal.cmp .olt (max v (-v)) (Ideal.ofBits .f32 0x7F800000#32) = 1#1) : v = ((v.toReal : ℝ) : EReal) := by
  have htop : Ideal.ofBits .f32 0x7F800000#32 = ⊤ := by simp [Ideal.ofBits, Ideal.ieee]
  rw [htop] at hv
  induction v using EReal.rec with
  | bot => exact absurd hv (by simp [Ideal.cmp])
  | coe v => rfl
  | top => exact absurd hv (by simp [Ideal.cmp])

/-- A 32-bit word that reads, signed, at least 0 and below 200 has a value below 200 and is the word of that value. -/
theorem word_of_range (w : BitVec 32)
    (hw : IntOp.andi (IntOp.cmpi .sge w 0#32) (IntOp.cmpi .slt w 200#32) = 1#1) :
    w.toNat < 200 ∧ w = BitVec.ofNat 32 w.toNat := by
  obtain ⟨h1, h2⟩ := IntOp.andi_eq_one.1 hw
  rw [IntOp.cmpi_sge] at h1
  rw [IntOp.cmpi_slt] at h2
  have e0 : (0#32 : BitVec 32).toInt = 0 := by decide
  have e200 : (200#32 : BitVec 32).toInt = 200 := by decide
  rw [e0] at h1
  rw [e200] at h2
  have e := BitVec.toInt_eq_toNat_cond w
  have := w.isLt
  refine ⟨by omega, ?_⟩
  apply BitVec.eq_of_toNat_eq
  rw [BitVec.toNat_ofNat, Nat.mod_eq_of_lt this]

/-- From the printed precondition evaluated all ones at `Ideal`: the arrays are real inputs (`Cert.Spec.RealInputs`). -/
theorem realInputs_of_pre (x : FVec Ideal Cert.Spec.SX .f32) (a : IVec Cert.Spec.SA 32) (r t : FVec Ideal Cert.Spec.SA .f32)
    (h : Cert.Pre_finite_inputs.fn (F := Ideal) x a r t = fun _ => 1#1) :
    ∃ (xr : Fin 512 → Fin 512 → Fin 200 → ℝ) (ai : Fin 512 → Fin 512 → Fin 200) (rr tr : Fin 512 → Fin 512 → ℝ),
      Cert.Spec.RealInputs x a r t xr ai rr tr := by
  -- the scalar result at its one index, with the thirty operations in view
  have h0 := congrFun h ValueIdx.ix0
  dsimp only [Cert.Pre_finite_inputs.fn, Cert.Pre_finite_inputs.fn_part1] at h0
  -- the four conjuncts: logits, rewards, terminals finite; actions in range
  obtain ⟨h123, h4⟩ := IntOp.andi_eq_one.1 (show IntOp.andi _ _ = 1#1 from h0)
  obtain ⟨h12, h3⟩ := IntOp.andi_eq_one.1 (show IntOp.andi _ _ = 1#1 from h123)
  obtain ⟨h1, h2⟩ := IntOp.andi_eq_one.1 (show IntOp.andi _ _ = 1#1 from h12)
  -- each conjunction over all entries holds at every entry
  have hx := Host.reduce_andi_all _ _ _ _ _ h1
  have hr := Host.reduce_andi_all _ _ _ _ _ h2
  have ht := Host.reduce_andi_all _ _ _ _ _ h3
  have ha := Host.reduce_andi_all _ _ _ _ _ h4
  have hA : ∀ b s : Fin 512, (a (ix2 b s)).toNat < 200 ∧ a (ix2 b s) = BitVec.ofNat 32 (a (ix2 b s)).toNat :=
    fun b s => word_of_range _ (ha (ix2 b s))
  -- the reals are the entries' real parts, the indices the actions' values
  refine ⟨fun b s k => (x (ix3 b s k)).toReal,
    fun b s => if hlt : (a (ix2 b s)).toNat < 200 then ⟨(a (ix2 b s)).toNat, hlt⟩ else ⟨0, by decide⟩,
    fun b s => (r (ix2 b s)).toReal, fun b s => (t (ix2 b s)).toReal, ?_, ?_, ?_, ?_⟩
  · intro b s k
    exact eq_coe_toReal_of_abs_lt _ (hx (ix3 b s k))
  · intro b s
    rw [dif_pos (hA b s).1]
    exact (hA b s).2
  · intro b s
    exact eq_coe_toReal_of_abs_lt _ (hr (ix2 b s))
  · intro b s
    exact eq_coe_toReal_of_abs_lt _ (ht (ix2 b s))

end Cert.PreFacts

end
-- ==== Proof.lean ====
/-
  The certificate: a policy-gradient loss computed by a pipelined kernel against its plain reference.

  Both programs compute, for each of 512 rows, the row total `-(Σ_s (x[a] - log Σ_k exp x_k) · (1 - t))` of masked
  log-probabilities and the row total of rewards, and then the same scalar function of those two vectors (a masked
  mean of their products, normalised). The kernel gets the row totals block by block: eight chunks of 32 steps per
  block of 256 steps, two blocks per row, accumulated in its output blocks; the reference takes a log-softmax with the
  row maximum subtracted, gathers the action's entry and sums the row. Over the reals the maximum's shift cancels,
  the one-hot product is the gathered entry for an action in range, and the chunks, blocks and rows are one sum.

  The precondition makes the float inputs finite (so every entry is a real and the sums may be regrouped) and the
  actions valid indices of the 200 classes (outside that range the reference's gather fills with a value no
  arithmetic is stated of, while the kernel's one-hot selects nothing).

  The three frames: each kernel program by the launch theorem over the body run at an even and at an odd grid
  point; the reference by its run with the result dropped. The idealization rewrote nothing.
-/
import proofs.«421785_j36747740185105_3_alg».proof.Defs
import proofs.«421785_j36747740185105_3_alg».proof.Proof.Gen.Kernel
import proofs.«421785_j36747740185105_3_alg».proof.Proof.Gen.KernelIdeal
import proofs.«421785_j36747740185105_3_alg».proof.Proof.Gen.ReferenceIdeal
import proofs.«421785_j36747740185105_3_alg».proof.Proof.Gen.Pre_finite_inputs
import proofs.«421785_j36747740185105_3_alg».proof.Proof.Kernel.Body
import proofs.«421785_j36747740185105_3_alg».proof.Proof.KernelIdeal.Arrays
import proofs.«421785_j36747740185105_3_alg».proof.Proof.KernelIdeal.Tail
import proofs.«421785_j36747740185105_3_alg».proof.Proof.RefRunHand
import proofs.«421785_j36747740185105_3_alg».proof.Proof.RefValue
import proofs.«421785_j36747740185105_3_alg».proof.Proof.RefTail
import proofs.«421785_j36747740185105_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx
open Cert.Spec (totalLogp totalRew RealInputs)

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunHand.run (F := Ideal) m ρ)

/-- The two vectors of row totals the specification gives for real inputs. -/
def Lvec (xr : Fin 512 → Fin 512 → Fin 200 → ℝ) (ai : Fin 512 → Fin 512 → Fin 200) (tr : Fin 512 → Fin 512 → ℝ) :
    FVec Ideal Cert.Spec.S512 .f32 := fun i => ((totalLogp xr ai tr (i 0) : ℝ) : EReal)
def Rvec (rr : Fin 512 → Fin 512 → ℝ) : FVec Ideal Cert.Spec.S512 .f32 := fun i => ((totalRew rr (i 0) : ℝ) : EReal)

/-- The kernel program's result for real inputs: the shared tail of the specification's row totals. -/
theorem kernel_result (m : (ℓ : Loc Cert.KernelIdeal.nD Cert.KernelIdeal.τ Cert.KernelIdeal.sig) → Buf (Elt Ideal) ℓ)
    (c : Dev Cert.KernelIdeal.nD) (xr : Fin 512 → Fin 512 → Fin 200 → ℝ) (ai : Fin 512 → Fin 512 → Fin 200) (rr tr : Fin 512 → Fin 512 → ℝ)
    (h : RealInputs (Cert.KernelIdeal.Gen.V m c Cert.KernelIdeal.main_arg0) (Cert.KernelIdeal.Gen.V m c Cert.KernelIdeal.main_arg1)
      (Cert.KernelIdeal.Gen.V m c Cert.KernelIdeal.main_arg2) (Cert.KernelIdeal.Gen.V m c Cert.KernelIdeal.main_arg3) xr ai rr tr) :
    Pipeline.afterTail₀ Cert.KernelIdeal.cfgs (Cert.KernelIdeal.Hand.dats (F := Ideal) m) 0 (Cert.KernelIdeal.Gen.V0 m)
        [Cert.KernelIdeal.Gen.hostOps1, Cert.KernelIdeal.Gen.hostOps1_1, Cert.KernelIdeal.Gen.hostOps1_2] c Cert.KernelIdeal.main_v15
      = Cert.Spec.tail (Lvec xr ai tr) (Rvec rr) :=
  Cert.KernelIdeal.Hand.tail_eq m c (Lvec xr ai tr) (Rvec rr)
    (fun b => Cert.KernelIdeal.Hand.arr4_apply m c xr ai rr tr h b)
    (fun b => Cert.KernelIdeal.Hand.arr5_apply m c xr ai rr tr h b)

/-- The reference program's result for real inputs: the same. -/
theorem reference_result (x : Vec Ideal Cert.ReferenceIdeal.S512x512x200 .f32) (a : Vec Ideal Cert.ReferenceIdeal.S512x512 .i32)
    (r t : Vec Ideal Cert.ReferenceIdeal.S512x512 .f32)
    (xr : Fin 512 → Fin 512 → Fin 200 → ℝ) (ai : Fin 512 → Fin 512 → Fin 200) (rr tr : Fin 512 → Fin 512 → ℝ)
    (h : RealInputs x a r t xr ai rr tr) :
    Cert.ReferenceIdeal.ReadP.val_main_v24 (F := Ideal) x a r t = Cert.Spec.tail (Lvec xr ai tr) (Rvec rr) := by
  rw [Cert.ReferenceIdeal.RefTail.ref_tail x a r t]
  have eL : Cert.ReferenceIdeal.ReadP.val_main_v10 (F := Ideal) x a t = Lvec xr ai tr :=
    funext fun i => by rw [eq_ix1 i]; exact Cert.ReferenceIdeal.RefValue.ref_L x a r t xr ai rr tr h (i 0)
  have eR : Cert.ReferenceIdeal.ReadP.val_main_v11 (F := Ideal) r = Rvec rr :=
    funext fun i => by rw [eq_ix1 i]; exact Cert.ReferenceIdeal.RefTail.ref_R x a r t xr ai rr tr h (i 0)
  rw [eL, eR]

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hRI : ∀ c : Dev Cert.KernelIdeal.nD, ∃ (xr : Fin 512 → Fin 512 → Fin 200 → ℝ) (ai : Fin 512 → Fin 512 → Fin 200) (rr tr : Fin 512 → Fin 512 → ℝ),
      RealInputs (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) xr ai rr tr :=
    fun c => Cert.PreFacts.realInputs_of_pre _ _ _ _ (hpre c)
  choose xr ai rr tr hRI using hRI
  refine ⟨fun c => Cert.Spec.tail (Lvec (xr c) (ai c) (tr c)) (Rvec (rr c)), ?_, ?_⟩
  · refine (θ_run Cert.KernelIdeal.defs _ _).mono (fun r h c => ?_) (Cert.KernelIdeal.Hand.run_main (F := Ideal) m ρ)
    have hfr := Cert.KernelIdeal.Gen.frame_of m ρ (Cert.KernelIdeal.Hand.dats m) (Cert.KernelIdeal.Hand.A_eq m)
    refine ⟨((h c).2 Cert.KernelIdeal.main_v15 (Pipeline.mem_restRefs_of _ rfl (fun w => by fin_cases w <;> decide))).trans
      (kernel_result m c (xr c) (ai c) (rr c) (tr c) (hRI c)), ?_, ?_, ?_, ?_⟩
    · exact ((h c).1 0).trans (((Cert.KernelIdeal.Hand.dats m 0 c).arrAt_in 0 rfl _).trans ((Cert.KernelIdeal.Hand.A_eq m c 0).trans (Cert.KernelIdeal.Gen.V_main_arg0 m c)))
    · exact ((h c).1 1).trans (((Cert.KernelIdeal.Hand.dats m 0 c).arrAt_in 1 rfl _).trans ((Cert.KernelIdeal.Hand.A_eq m c 1).trans (Cert.KernelIdeal.Gen.V_main_arg1 m c)))
    · exact ((h c).1 2).trans (((Cert.KernelIdeal.Hand.dats m 0 c).arrAt_in 2 rfl _).trans ((Cert.KernelIdeal.Hand.A_eq m c 2).trans (Cert.KernelIdeal.Gen.V_main_arg2 m c)))
    · exact ((h c).1 3).trans (((Cert.KernelIdeal.Hand.dats m 0 c).arrAt_in 3 rfl _).trans ((Cert.KernelIdeal.Hand.A_eq m c 3).trans (Cert.KernelIdeal.Gen.V_main_arg3 m c)))
  · refine (θ_run Cert.ReferenceIdeal.defs _ _).mono (fun r h c => ⟨(h c).1.trans ?_, (h c).2⟩)
      (Cert.ReferenceIdeal.RunHand.run (F := Ideal) m' ρ')
    rw [(hagree c).1, (hagree c).2.1, (hagree c).2.2.1, (hagree c).2.2.2]
    exact reference_result _ _ _ _ (xr c) (ai c) (rr c) (tr c) (hRI c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
